-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))

def preserves_Kernel_KernelIdeal : Prop :=
  IdealRules.named_const.Statement Cert.KernelIdeal.κ "neg_big" .f32 0xFF333332#32 ⊥

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v1_0)) (v1 : (c : Dev Cert.KernelIdeal.nD) → Buf (Elt Ideal) ((c.tc : Thread Cert.KernelIdeal.nD Cert.KernelIdeal.τ).loc Cert.KernelIdeal.main_v1_1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1_0) = v0 c
          ∧ r.2.mem ((c.tc : Thread Cert.KernelIdeal.nD Cert.KernelIdeal.τ).loc Cert.KernelIdeal.main_v1_1) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v15) = v0 c
          ∧ r.2.mem ((c.tc : Thread Cert.ReferenceIdeal.nD Cert.ReferenceIdeal.τ).loc Cert.ReferenceIdeal.main_v14) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S64x2048x64 : Shape := ⟨3, ![64, 2048, 64]⟩
abbrev S64x2048x2048 : Shape := ⟨3, ![64, 2048, 2048]⟩
abbrev S_ : Shape := ⟨0, ![]⟩
abbrev S64x2048 : Shape := ⟨2, ![64, 2048]⟩

class Facts : Prop where
  bcast_S_S64x2048x64 : S_.BroadcastsInDim S64x2048x64 (![] : Fin 0 → Fin S64x2048x64.rank)
  reducesTo_S64x2048x64_S_d0_1_2 : S64x2048x64.ReducesTo [0, 1, 2] S_
  h_S_ : 0 < S_.numel
  reducesTo_S64x2048x2048_S64x2048_d2 : S64x2048x2048.ReducesTo [2] S64x2048
  reducesTo_S64x2048_S_d0_1 : S64x2048.ReducesTo [0, 1] S_

variable [Facts]

def fn_part1 {F : FTy → Type} [FloatOps F] (main_v13 : IVec S_ 1) (main_v15 : IVec S64x2048 1) (main_c_5 : IVec S_ 1) : IVec S_ 1 :=
  let main_v16 : IVec S_ 1 := (fun x v => Host.reduce IntOp.andi x v reducesTo_S64x2048_S_d0_1 h_S_) main_v15 main_c_5
  let main_v17 : IVec S_ 1 := andi main_v13 main_v16
  main_v17

def fn {F : FTy → Type} [FloatOps F] (main_arg0 : FVec F S64x2048x64 .f32) (main_arg1 : FVec F S64x2048x64 .f32) (main_arg2 : FVec F S64x2048x64 .f32) (main_arg3 : IVec S64x2048x2048 1) : IVec S_ 1 :=
  let main_v0 : FVec F S64x2048x64 .f32 := Host.absf main_arg0
  let main_cst : FVec F S_ .f32 := constant S_ .f32 0x7F800000#32
  let main_v1 : FVec F S64x2048x64 .f32 := broadcastInDim S64x2048x64 ![] bcast_S_S64x2048x64 main_cst
  let main_v2 : IVec S64x2048x64 1 := cmpf .olt main_v0 main_v1
  let main_c : IVec S_ 1 := constantI S_ 1 1#1
  let main_v3 : IVec S_ 1 := (fun x v => Host.reduce IntOp.andi x v reducesTo_S64x2048x64_S_d0_1_2 h_S_) main_v2 main_c
  let main_v4 : FVec F S64x2048x64 .f32 := Host.absf main_arg1
  let main_cst_0 : FVec F S_ .f32 := constant S_ .f32 0x7F800000#32
  let main_v5 : FVec F S64x2048x64 .f32 := broadcastInDim S64x2048x64 ![] bcast_S_S64x2048x64 main_cst_0
  let main_v6 : IVec S64x2048x64 1 := cmpf .olt main_v4 main_v5
  let main_c_1 : IVec S_ 1 := constantI S_ 1 1#1
  let main_v7 : IVec S_ 1 := (fun x v => Host.reduce IntOp.andi x v reducesTo_S64x2048x64_S_d0_1_2 h_S_) main_v6 main_c_1
  let main_v8 : IVec S_ 1 := andi main_v3 main_v7
  let main_v9 : FVec F S64x2048x64 .f32 := Host.absf main_arg2
  let main_cst_2 : FVec F S_ .f32 := constant S_ .f32 0x7F800000#32
  let main_v10 : FVec F S64x2048x64 .f32 := broadcastInDim S64x2048x64 ![] bcast_S_S64x2048x64 main_cst_2
  let main_v11 : IVec S64x2048x64 1 := cmpf .olt main_v9 main_v10
  let main_c_3 : IVec S_ 1 := constantI S_ 1 1#1
  let main_v12 : IVec S_ 1 := (fun x v => Host.reduce IntOp.andi x v reducesTo_S64x2048x64_S_d0_1_2 h_S_) main_v11 main_c_3
  let main_v13 : IVec S_ 1 := andi main_v8 main_v12
  let main_v14 : IVec S64x2048x2048 1 := noti main_arg3
  let main_c_4 : IVec S_ 1 := constantI S_ 1 0#1
  let main_v15 : IVec S64x2048 1 := (fun x v => Host.reduce IntOp.ori x v reducesTo_S64x2048x2048_S64x2048_d2 h_S_) main_v14 main_c_4
  let main_c_5 : IVec S_ 1 := constantI S_ 1 1#1
  fn_part1 (F := F) main_v13 main_v15 main_c_5
-- ==== Kernel.lean ====
abbrev S64x2048x64 : Shape := ⟨3, ![64, 2048, 64]⟩
abbrev S64x2048x2048 : Shape := ⟨3, ![64, 2048, 2048]⟩
abbrev S1x512x64 : Shape := ⟨3, ![1, 512, 64]⟩
abbrev S1x2048x64 : Shape := ⟨3, ![1, 2048, 64]⟩
abbrev S1x512x2048 : Shape := ⟨3, ![1, 512, 2048]⟩
abbrev S512x64 : Shape := ⟨2, ![512, 64]⟩
abbrev S2048x64 : Shape := ⟨2, ![2048, 64]⟩
abbrev S512x2048 : Shape := ⟨2, ![512, 2048]⟩
abbrev S512 : Shape := ⟨1, ![512]⟩
abbrev S512x1 : Shape := ⟨2, ![512, 1]⟩

abbrev nBuf : Space → Nat
  | .hbm => 7
  | .vmem => 12
  | .smem => 0
  | _ => 0

abbrev bufTy : (tb : Table) → Fin (tcTables nBuf tb) → BufTy
  | .hbm, ⟨0, _⟩ => ⟨S64x2048x64, .f32⟩
  | .hbm, ⟨1, _⟩ => ⟨S64x2048x64, .f32⟩
  | .hbm, ⟨2, _⟩ => ⟨S64x2048x64, .f32⟩
  | .hbm, ⟨3, _⟩ => ⟨S64x2048x2048, .i1⟩
  | .hbm, ⟨4, _⟩ => ⟨S64x2048x2048, .i32⟩
  | .hbm, ⟨5, _⟩ => ⟨S64x2048x64, .f32⟩
  | .hbm, ⟨6, _⟩ => ⟨S64x2048x2048, .f32⟩
  | .local _ .vmem, ⟨0, _⟩ => ⟨S1x512x64, .f32⟩
  | .local _ .vmem, ⟨1, _⟩ => ⟨S1x512x64, .f32⟩
  | .local _ .vmem, ⟨2, _⟩ => ⟨S1x2048x64, .f32⟩
  | .local _ .vmem, ⟨3, _⟩ => ⟨S1x2048x64, .f32⟩
  | .local _ .vmem, ⟨4, _⟩ => ⟨S1x2048x64, .f32⟩
  | .local _ .vmem, ⟨5, _⟩ => ⟨S1x2048x64, .f32⟩
  | .local _ .vmem, ⟨6, _⟩ => ⟨S1x512x2048, .i32⟩
  | .local _ .vmem, ⟨7, _⟩ => ⟨S1x512x2048, .i32⟩
  | .local _ .vmem, ⟨8, _⟩ => ⟨S1x512x64, .f32⟩
  | .local _ .vmem, ⟨9, _⟩ => ⟨S1x512x64, .f32⟩
  | .local _ .vmem, ⟨10, _⟩ => ⟨S1x512x2048, .f32⟩
  | .local _ .vmem, ⟨11, _⟩ => ⟨S1x512x2048, .f32⟩
  | _, _ => ⟨S64x2048x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1_0 : Ref sig .tc := ⟨.hbm, 5, rfl⟩
abbrev main_v1_1 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11

abbrev nD : Nat := 1
abbrev τ : Topo := Topo.v7x

variable {F : FTy → Type} [FloatOps F]

abbrev grid0 : Pipeline.Grid := ⟨2, ![64, 4], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x512x64 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x2048x64 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1x2048x64 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S1x512x2048 .i32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x512x64 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1x512x2048 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

class Facts₀ : Prop where
  natLt_1_32 : 1 < 32
  inb_S1x512x64_S1x512x64_0_0_0 : ∀ a, (![0, 0, 0] : Fin 3 → Nat) a + S1x512x64.size a ≤ S1x512x64.size a
  h_S1x512x64 : 0 < S1x512x64.numel
  shapeCasts_S1x512x64_S512x64 : S1x512x64.ShapeCasts S512x64
  bitsLt_bf16_f32 : FTy.bits .bf16 < FTy.bits .f32
  inb_S1x2048x64_S1x2048x64_0_0_0 : ∀ a, (![0, 0, 0] : Fin 3 → Nat) a + S1x2048x64.size a ≤ S1x2048x64.size a
  h_S1x2048x64 : 0 < S1x2048x64.numel
  shapeCasts_S1x2048x64_S2048x64 : S1x2048x64.ShapeCasts S2048x64
  inb_S1x512x2048_S1x512x2048_0_0_0 : ∀ a, (![0, 0, 0] : Fin 3 → Nat) a + S1x512x2048.size a ≤ S1x512x2048.size a
  h_S1x512x2048 : 0 < S1x512x2048.numel
  shapeCasts_S1x512x2048_S512x2048 : S1x512x2048.ShapeCasts S512x2048
  reduces_S512x2048_S512 : S512x2048.Reduces [1] S512
  shapeCasts_S512_S512x1 : S512.ShapeCasts S512x1
  broadcasts_S512x1_S512x2048 : S512x1.Broadcasts S512x2048
  shapeCasts_S512x2048_S1x512x2048 : S512x2048.ShapeCasts S1x512x2048
  shapeCasts_S512x64_S1x512x64 : S512x64.ShapeCasts S1x512x64
  dot_S512x64_S2048x64_S512x2048_1_1_0_0_n_n_wf : DotDims.WF S512x64 S2048x64 S512x2048 [1] [1] [0] [0] [] []
  dot_S512x2048_S2048x64_S512x64_1_0_0_1_n_n_wf : DotDims.WF S512x2048 S2048x64 S512x64 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x512x64.size a ≤ S64x2048x64.size a
  hwx0_0 : ∀ i : grid0.Coords, EltTy.bits .f32 = 32 ∨ (Rect.block (s := S64x2048x64) S1x512x64.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1x2048x64.size a ≤ S64x2048x64.size a
  hwx0_1 : ∀ i : grid0.Coords, EltTy.bits .f32 = 32 ∨ (Rect.block (s := S64x2048x64) S1x2048x64.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x2048x64.size a ≤ S64x2048x64.size a
  hwx0_2 : ∀ i : grid0.Coords, EltTy.bits .f32 = 32 ∨ (Rect.block (s := S64x2048x64) S1x2048x64.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1x512x2048.size a ≤ S64x2048x2048.size a
  hwx0_3 : ∀ i : grid0.Coords, EltTy.bits .i32 = 32 ∨ (Rect.block (s := S64x2048x2048) S1x512x2048.size (cc0_transform_3 i) (hinb0_3 i)).WholeWords (EltTy.packing .i32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S1x512x64.size a ≤ S64x2048x64.size a
  hwx0_4 : ∀ i : grid0.Coords, EltTy.bits .f32 = 32 ∨ (Rect.block (s := S64x2048x64) S1x512x64.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S1x512x2048.size a ≤ S64x2048x2048.size a
  hwx0_5 : ∀ i : grid0.Coords, EltTy.bits .f32 = 32 ∨ (Rect.block (s := S64x2048x2048) S1x512x2048.size (cc0_transform_5 i) (hinb0_5 i)).WholeWords (EltTy.packing .f32)

variable [Facts₀]

def dot_S512x64_S2048x64_S512x2048_1_1_0_0_n_n : DotDims S512x64 S2048x64 S512x2048 where
  lhsContracting := [1]
  rhsContracting := [1]
  lhsNonContracting := [0]
  rhsNonContracting := [0]
  lhsBatch := []
  rhsBatch := []
  wf := dot_S512x64_S2048x64_S512x2048_1_1_0_0_n_n_wf
def dot_S512x2048_S2048x64_S512x64_1_0_0_1_n_n : DotDims S512x2048 S2048x64 S512x64 where
  lhsContracting := [1]
  rhsContracting := [0]
  lhsNonContracting := [0]
  rhsNonContracting := [1]
  lhsBatch := []
  rhsBatch := []
  wf := dot_S512x2048_S2048x64_S512x64_1_0_0_1_n_n_wf

abbrev win0_0 : Pipeline.Window sig grid0 :=
  Pipeline.Window.ofSpec (Memref.whole main_arg0) S1x512x64.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S1x2048x64.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S1x2048x64.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v0) S1x512x2048.size cc0_transform_3 reads0_3 false false 2 stage0_3 sem0_3
    hrank0 hreads0_3 hinb0_3 nbuf0_3 (Memref.isWhole_whole _) hwx0_3 hstage0_3

abbrev win0_4 : Pipeline.Window sig grid0 :=
  Pipeline.Window.ofSpec (Memref.whole main_v1_0) S1x512x64.size cc0_transform_4 reads0_4 true false 2 stage0_4 sem0_4
    hrank0 hreads0_4 hinb0_4 nbuf0_4 (Memref.isWhole_whole _) hwx0_4 hstage0_4

abbrev win0_5 : Pipeline.Window sig grid0 :=
  Pipeline.Window.ofSpec (Memref.whole main_v1_1) S1x512x2048.size cc0_transform_5 reads0_5 true false 2 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

class Facts : Prop extends Facts₀ where

variable [Facts]
-- ==== ReferenceIdeal.lean ====
abbrev S64x2048x64 : Shape := ⟨3, ![64, 2048, 64]⟩
abbrev S64x2048x2048 : Shape := ⟨3, ![64, 2048, 2048]⟩
abbrev S_ : Shape := ⟨0, ![]⟩
abbrev S64x2048 : Shape := ⟨2, ![64, 2048]⟩
abbrev S64x2048x1 : Shape := ⟨3, ![64, 2048, 1]⟩

abbrev nBuf : Space → Nat
  | .hbm => 27
  | .vmem => 0
  | .smem => 0
  | _ => 0

abbrev bufTy : (tb : Table) → Fin (tcTables nBuf tb) → BufTy
  | .hbm, ⟨0, _⟩ => ⟨S64x2048x64, .f32⟩
  | .hbm, ⟨1, _⟩ => ⟨S64x2048x64, .f32⟩
  | .hbm, ⟨2, _⟩ => ⟨S64x2048x64, .f32⟩
  | .hbm, ⟨3, _⟩ => ⟨S64x2048x2048, .i1⟩
  | .hbm, ⟨4, _⟩ => ⟨S64x2048x2048, .f32⟩
  | .hbm, ⟨5, _⟩ => ⟨S_, .f32⟩
  | .hbm, ⟨6, _⟩ => ⟨S64x2048x2048, .f32⟩
  | .hbm, ⟨7, _⟩ => ⟨S64x2048x2048, .f32⟩
  | .hbm, ⟨8, _⟩ => ⟨S_, .f32⟩
  | .hbm, ⟨9, _⟩ => ⟨S_, .f32⟩
  | .hbm, ⟨10, _⟩ => ⟨S64x2048x2048, .f32⟩
  | .hbm, ⟨11, _⟩ => ⟨S64x2048x2048, .f32⟩
  | .hbm, ⟨12, _⟩ => ⟨S_, .f32⟩
  | .hbm, ⟨13, _⟩ => ⟨S64x2048, .f32⟩
  | .hbm, ⟨14, _⟩ => ⟨S_, .f32⟩
  | .hbm, ⟨15, _⟩ => ⟨S64x2048, .f32⟩
  | .hbm, ⟨16, _⟩ => ⟨S64x2048, .f32⟩
  | .hbm, ⟨17, _⟩ => ⟨S64x2048x1, .f32⟩
  | .hbm, ⟨18, _⟩ => ⟨S64x2048x2048, .f32⟩
  | .hbm, ⟨19, _⟩ => ⟨S64x2048x2048, .f32⟩
  | .hbm, ⟨20, _⟩ => ⟨S64x2048x2048, .f32⟩
  | .hbm, ⟨21, _⟩ => ⟨S_, .f32⟩
  | .hbm, ⟨22, _⟩ => ⟨S64x2048, .f32⟩
  | .hbm, ⟨23, _⟩ => ⟨S64x2048x1, .f32⟩
  | .hbm, ⟨24, _⟩ => ⟨S64x2048x2048, .f32⟩
  | .hbm, ⟨25, _⟩ => ⟨S64x2048x2048, .f32⟩
  | .hbm, ⟨26, _⟩ => ⟨S64x2048x64, .f32⟩
  | _, _ => ⟨S64x2048x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_v2 : Ref sig .tc := ⟨.hbm, 7, rfl⟩
abbrev main_cst_0 : Ref sig .tc := ⟨.hbm, 8, rfl⟩
abbrev main_call0_v0 : Ref sig .tc := ⟨.hbm, 9, rfl⟩
abbrev main_call0_v1 : Ref sig .tc := ⟨.hbm, 10, rfl⟩
abbrev main_v3 : Ref sig .tc := ⟨.hbm, 11, rfl⟩
abbrev main_cst_1 : Ref sig .tc := ⟨.hbm, 12, rfl⟩
abbrev main_v4 : Ref sig .tc := ⟨.hbm, 13, rfl⟩
abbrev main_cst_2 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_cst_3 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩

abbrev nD : Nat := 1
abbrev τ : Topo := Topo.v7x

variable {F : FTy → Type} [FloatOps F]

class Facts₀ : Prop where
  bcast_S_S64x2048x2048 : S_.BroadcastsInDim S64x2048x2048 (![] : Fin 0 → Fin S64x2048x2048.rank)
  reducesTo_S64x2048x2048_S64x2048_d2 : S64x2048x2048.ReducesTo [2] S64x2048
  h_S_ : 0 < S_.numel
  bcast_S_S64x2048 : S_.BroadcastsInDim S64x2048 (![] : Fin 0 → Fin S64x2048.rank)
  bcast_S64x2048_S64x2048x1_0_1 : S64x2048.BroadcastsInDim S64x2048x1 (![0, 1] : Fin 2 → Fin S64x2048x1.rank)
  bcast_S64x2048x1_S64x2048x2048_0_1_2 : S64x2048x1.BroadcastsInDim S64x2048x2048 (![0, 1, 2] : Fin 3 → Fin S64x2048x2048.rank)
  dot_S64x2048x64_S64x2048x64_S64x2048x2048_2_2_1_1_0_0_wf : DotDims.WF S64x2048x64 S64x2048x64 S64x2048x2048 [2] [2] [1] [1] [0] [0]
  dot_S64x2048x2048_S64x2048x64_S64x2048x64_2_1_1_2_0_0_wf : DotDims.WF S64x2048x2048 S64x2048x64 S64x2048x64 [2] [1] [1] [2] [0] [0]

variable [Facts₀]

def dot_S64x2048x64_S64x2048x64_S64x2048x2048_2_2_1_1_0_0 : DotDims S64x2048x64 S64x2048x64 S64x2048x2048 where
  lhsContracting := [2]
  rhsContracting := [2]
  lhsNonContracting := [1]
  rhsNonContracting := [1]
  lhsBatch := [0]
  rhsBatch := [0]
  wf := dot_S64x2048x64_S64x2048x64_S64x2048x2048_2_2_1_1_0_0_wf
def dot_S64x2048x2048_S64x2048x64_S64x2048x64_2_1_1_2_0_0 : DotDims S64x2048x2048 S64x2048x64 S64x2048x64 where
  lhsContracting := [2]
  rhsContracting := [1]
  lhsNonContracting := [1]
  rhsNonContracting := [2]
  lhsBatch := [0]
  rhsBatch := [0]
  wf := dot_S64x2048x2048_S64x2048x64_S64x2048x64_2_1_1_2_0_0_wf

class Facts : Prop extends Facts₀ where

variable [Facts]
-- ==== Proof.Spec.lean ====
/-
  Masked softmax attention, as functions on the extended reals.

  For a batch `b`, a query row `i` and a key `j` the score is the dot product of query row `i` and key row `j`
  over the 64 features, divided by 8, and the bottom element wherever the mask is set. A row of scores is shifted
  by its maximum and exponentiated; the attention probability is that exponential over the row's sum of
  exponentials; the output row is the probabilities' weighted sum of the value rows.

  The row operations are stated over an arbitrary row length so that the laws about them need no shape.
-/
import Idealize.ShloMosaic.PureOps.Ideal
import Idealize.ShloMosaic.Lib.ValueIdx

noncomputable section

namespace Cert.Attn

open Idealize.ShloMosaic Idealize.ShloMosaic.ValueIdx

/-- Queries, keys, values and the output: 64 batches of 2048 rows of 64 features. -/
abbrev SQ : Shape := ⟨3, ![64, 2048, 64]⟩
/-- The mask and the attention probabilities: 64 batches of 2048 query rows by 2048 keys. -/
abbrev SA : Shape := ⟨3, ![64, 2048, 2048]⟩

section Row

variable {n : ℕ}

/-- A row's maximum, taken from the bottom element. -/
def rowMax (s : Fin n → EReal) : EReal := (Finset.univ : Finset (Fin n)).fold max ⊥ s

/-- The row shifted by its maximum, exponentiated. -/
def expRow (s : Fin n → EReal) (j : Fin n) : EReal := Ideal.exp (s j - rowMax s)

/-- The row's normaliser: the sum of its shifted exponentials. -/
def rowSum (s : Fin n → EReal) : EReal := ∑ j, expRow s j

/-- The softmax of a row, as the quotient of each shifted exponential by the normaliser. -/
def softmax (s : Fin n → EReal) (j : Fin n) : EReal := Ideal.div (expRow s j) (rowSum s)

end Row

/-- The dot product of query row `i` and key row `j` of batch `b` over the features. -/
def dotQK (q k : SQ.Idx → EReal) (b : Fin 64) (i j : Fin 2048) : EReal :=
  ∑ d : Fin 64, q (ix3 b i d) * k (ix3 b j d)

/-- The masked score row of query `i` of batch `b`: bottom where the mask is set, else the dot product over 8. -/
def score (q k : SQ.Idx → EReal) (msk : SA.Idx → BitVec 1) (b : Fin 64) (i : Fin 2048) : Fin 2048 → EReal :=
  fun j => if msk (ix3 b i j) = 1#1 then ⊥ else Ideal.div (dotQK q k b i j) ((8 : ℝ) : EReal)

/-- The attention probability of key `j` for query `i` of batch `b`. -/
def attn (q k : SQ.Idx → EReal) (msk : SA.Idx → BitVec 1) (b : Fin 64) (i j : Fin 2048) : EReal :=
  softmax (score q k msk b i) j

/-- Feature `d` of the output row of query `i` of batch `b`: the probabilities' weighted sum of the value rows. -/
def out (q k v : SQ.Idx → EReal) (msk : SA.Idx → BitVec 1) (b : Fin 64) (i : Fin 2048) (d : Fin 64) : EReal :=
  ∑ j : Fin 2048, attn q k msk b i j * v (ix3 b j d)

/-- The attention probabilities as one array. -/
def attnArr (q k : SQ.Idx → EReal) (msk : SA.Idx → BitVec 1) : SA.Idx → EReal :=
  fun x => attn q k msk (x 0) (x 1) (x 2)

/-- The output as one array. -/
def outArr (q k v : SQ.Idx → EReal) (msk : SA.Idx → BitVec 1) : SQ.Idx → EReal :=
  fun x => out q k v msk (x 0) (x 1) (x 2)

end Cert.Attn

end
-- ==== Proof.RowLaw.lean ====
/-
  Laws of a softmax row on the extended reals, and the float constants the two programs spell.

  A score row with no entry at the top element and at least one entry above the bottom element has a real maximum;
  the entry that attains it contributes `exp 0 = 1` to the normaliser and every other entry a non-negative amount, so
  the normaliser is positive, in particular not zero. Division by a non-zero extended real is multiplication by its
  inverse, so multiplying a shifted exponential by the reciprocal of the normaliser is dividing it by the normaliser.
  For real queries and keys a dot product whose first factors are pre-multiplied by 1/8 is the dot product divided by 8.
-/
import proofs.«429906_j24300924961205_3_alg».proof.Proof.Spec
import Mathlib.Data.Finset.Fold

noncomputable section

namespace Cert.Attn

open Idealize.ShloMosaic

/-- The pattern of negative infinity denotes the bottom element. -/
theorem ofBits_neg_inf : Ideal.ofBits .f32 0xFF800000#32 = ⊥ := by
  simp [Ideal.ofBits, Ideal.ieee]

/-- The pattern of positive infinity denotes the top element. -/
theorem ofBits_pos_inf : Ideal.ofBits .f32 0x7F800000#32 = ⊤ := by
  simp [Ideal.ofBits, Ideal.ieee]

/-- The pattern of 1.0 denotes 1. -/
theorem ofBits_one : Ideal.ofBits .f32 0x3F800000#32 = 1 := by
  simp [Ideal.ofBits, Ideal.ieee, -EReal.coe_mul]; norm_num

/-- The pattern of 0.125 denotes the real 1/8. -/
theorem ofBits_eighth : Ideal.ofBits .f32 0x3E000000#32 = ((1 / 8 : ℝ) : EReal) := by
  simp [Ideal.ofBits, Ideal.ieee, -EReal.coe_mul]; norm_num

/-- The pattern of 8.0 denotes the real 8. -/
theorem ofBits_eight : Ideal.ofBits .f32 0x41000000#32 = ((8 : ℝ) : EReal) := by
  simp [Ideal.ofBits, Ideal.ieee, -EReal.coe_mul]; norm_num

variable {n : ℕ}

/-- Taking the maximum with the bottom element once more changes nothing. -/
theorem max_bot_rowMax (s : Fin n → EReal) : max ⊥ (rowMax s) = rowMax s := by
  exact max_eq_right bot_le

/-- The coercion of the reals into the extended reals commutes with finite sums. -/
private theorem coe_sum {ι : Type} (t : Finset ι) (f : ι → ℝ) :
    ((∑ d ∈ t, f d : ℝ) : EReal) = ∑ d ∈ t, (f d : EReal) := by
  classical
  induction t using Finset.induction_on with
  | empty => simp
  | insert a t ha ih => rw [Finset.sum_insert ha, Finset.sum_insert ha, EReal.coe_add, ih]

/-- A dot product of real rows, over 8, is the real dot product times 1/8. -/
private theorem dot_div_real (x y : Fin n → ℝ) :
    Ideal.div (∑ d, (x d : EReal) * (y d : EReal)) ((8 : ℝ) : EReal)
      = (((∑ d, x d * y d) * (1 / 8) : ℝ) : EReal) := by
  rw [Ideal.div_coe (by norm_num : (8 : ℝ) ≠ 0), EReal.coe_mul, coe_sum]
  simp only [EReal.coe_mul]

/-- For real `x` and `y`, pre-multiplying each `x d` by 1/8 divides the dot product by 8. -/
theorem scaled_dot (x y : Fin n → EReal) (hx : ∀ d, x d ≠ ⊤ ∧ x d ≠ ⊥) (hy : ∀ d, y d ≠ ⊤ ∧ y d ≠ ⊥) :
    ∑ d, (x d * ((1 / 8 : ℝ) : EReal)) * y d = Ideal.div (∑ d, x d * y d) ((8 : ℝ) : EReal) := by
  lift x to Fin n → ℝ using hx
  lift y to Fin n → ℝ using hy
  rw [dot_div_real]
  have h : ∀ d, ((x d : EReal) * ((1 / 8 : ℝ) : EReal)) * (y d : EReal) = ((x d * (1 / 8) * y d : ℝ) : EReal) := by
    intro d; rw [EReal.coe_mul, EReal.coe_mul]
  simp only [h]
  rw [← coe_sum]
  congr 1
  rw [Finset.sum_mul]
  exact Finset.sum_congr rfl (fun d _ => by ring)

/-- For real `x` and `y` the dot product over 8 is not the top element. -/
theorem dot_div_ne_top (x y : Fin n → EReal) (hx : ∀ d, x d ≠ ⊤ ∧ x d ≠ ⊥) (hy : ∀ d, y d ≠ ⊤ ∧ y d ≠ ⊥) :
    Ideal.div (∑ d, x d * y d) ((8 : ℝ) : EReal) ≠ ⊤ := by
  lift x to Fin n → ℝ using hx
  lift y to Fin n → ℝ using hy
  rw [dot_div_real]
  exact EReal.coe_ne_top _

/-- For real `x` and `y` the dot product over 8 is not the bottom element. -/
theorem dot_div_ne_bot (x y : Fin n → EReal) (hx : ∀ d, x d ≠ ⊤ ∧ x d ≠ ⊥) (hy : ∀ d, y d ≠ ⊤ ∧ y d ≠ ⊥) :
    Ideal.div (∑ d, x d * y d) ((8 : ℝ) : EReal) ≠ ⊥ := by
  lift x to Fin n → ℝ using hx
  lift y to Fin n → ℝ using hy
  rw [dot_div_real]
  exact EReal.coe_ne_bot _

/-- The exponential is non-negative at every extended real. -/
private theorem exp_nonneg (x : EReal) : 0 ≤ Ideal.exp x := by
  induction x with
  | bot => simp
  | coe r => rw [Ideal.exp_coe]; exact EReal.coe_nonneg.mpr (Real.exp_pos r).le
  | top => simp

/-- Every shifted exponential of a row is non-negative. -/
private theorem expRow_nonneg (s : Fin n → EReal) (j : Fin n) : 0 ≤ expRow s j := exp_nonneg _

/-- A row with no entry at the top and some entry above the bottom attains its real maximum, and the shifted
    exponential there is 1. -/
private theorem exists_expRow_eq_one (s : Fin n → EReal) (hlt : ∀ j, s j ≠ ⊤) (hex : ∃ j, s j ≠ ⊥) :
    ∃ j, expRow s j = 1 := by
  obtain ⟨j0, hj0⟩ := hex
  have hle : ∀ j, s j ≤ rowMax s := fun j =>
    (Finset.le_fold_max _).mpr (Or.inr ⟨j, Finset.mem_univ j, le_rfl⟩)
  have hbot : ⊥ < rowMax s := lt_of_lt_of_le (bot_lt_iff_ne_bot.mpr hj0) (hle j0)
  have htop : rowMax s < ⊤ :=
    (Finset.fold_max_lt _).mpr ⟨bot_lt_top, fun j _ => lt_top_iff_ne_top.mpr (hlt j)⟩
  have hatt : ∃ j, s j = rowMax s := by
    rcases (Finset.le_fold_max _).mp (le_refl (rowMax s)) with h | ⟨j, _, h⟩
    · exact absurd h (not_le.mpr hbot)
    · exact ⟨j, le_antisymm (hle j) h⟩
  obtain ⟨j, hj⟩ := hatt
  refine ⟨j, ?_⟩
  unfold expRow
  rw [hj]
  lift rowMax s to ℝ using ⟨htop.ne, hbot.ne'⟩ with m
  rw [← EReal.coe_sub, sub_self, Ideal.exp_coe, Real.exp_zero, EReal.coe_one]

/-- A row with no entry at the top and some entry above the bottom has a non-zero normaliser. -/
theorem rowSum_ne_zero (s : Fin n → EReal) (hlt : ∀ j, s j ≠ ⊤) (hex : ∃ j, s j ≠ ⊥) : rowSum s ≠ 0 := by
  obtain ⟨j, hj⟩ := exists_expRow_eq_one s hlt hex
  have h1 : (1 : EReal) ≤ rowSum s := by
    rw [← hj]
    exact Finset.single_le_sum (fun i _ => expRow_nonneg s i) (Finset.mem_univ j)
  intro h0
  rw [h0] at h1
  exact absurd h1 (not_le.mpr zero_lt_one)

/-- On such a row, a shifted exponential times the reciprocal of the normaliser is the softmax. -/
theorem mul_recip_eq_softmax (s : Fin n → EReal) (hlt : ∀ j, s j ≠ ⊤) (hex : ∃ j, s j ≠ ⊥) (j : Fin n) :
    expRow s j * Ideal.div 1 (rowSum s) = softmax s j := by
  have h := rowSum_ne_zero s hlt hex
  unfold softmax Ideal.div
  rw [if_neg h, if_neg h, one_mul]

end Cert.Attn

end
-- ==== Proof.KernelPay.lean ====
/-
  What the kernel body computes from its blocks, entry by entry: the block of attention probabilities is, in row `p`,
  each shifted exponential of that row's masked scores times the reciprocal of the row's normaliser, the scores being
  dot products of the query row pre-multiplied by 1/8 with the key rows; the output block is the product of that block
  with the value block.
-/
import proofs.«429906_j24300924961205_3_alg».proof.Proof.Gen.KernelIdeal.Skeleton
import proofs.«429906_j24300924961205_3_alg».proof.Proof.RowLaw
import Idealize.ShloMosaic.Lib.Pipeline.Value
import Idealize.ShloMosaic.Lib.ValueLayout
import Idealize.ShloMosaic.PureOps.Ideal.Laws

noncomputable section

namespace Cert.Attn

open Idealize.ShloMosaic Idealize.ShloMosaic.ValueIdx Cert.KernelIdeal Cert.KernelIdeal.Gen

/-- The kernel's score row of block row `p`: bottom where the widened mask word is not zero, else the dot product of
    the query row, each entry first multiplied by 1/8, with the key row. -/
def blockScore (P0 : Vec Ideal S1x512x64 .f32) (P1 : Vec Ideal S1x2048x64 .f32) (P3 : Vec Ideal S1x512x2048 .i32)
    (p : Fin 512) : Fin 2048 → EReal :=
  fun j => if P3 (ix3 0 p j) = 0#32 then ∑ d : Fin 64, (P0 (ix3 0 p d) * ((1 / 8 : ℝ) : EReal)) * P1 (ix3 0 j d) else ⊥

/-- The query block scaled by 1/8. -/
private def qs (P0 : Vec Ideal S1x512x64 .f32) : FVec Ideal S512x64 .bf16 :=
  truncf .bf16 (mulf (shapeCast S512x64 P0 shapeCasts_S1x512x64_S512x64)
    (broadcast S512x64 (Scalar.ofBits .f32 0x3E000000#32))) bitsLt_bf16_f32

/-- The key block as a matrix. -/
private def ks (P1 : Vec Ideal S1x2048x64 .f32) : FVec Ideal S2048x64 .bf16 :=
  truncf .bf16 (shapeCast S2048x64 P1 shapeCasts_S1x2048x64_S2048x64) bitsLt_bf16_f32

/-- The masked scores: the named constant where the mask word is not zero, else the product of the scaled queries
    with the keys. -/
private def sc (P0 : Vec Ideal S1x512x64 .f32) (P1 : Vec Ideal S1x2048x64 .f32) (P3 : Vec Ideal S1x512x2048 .i32) :
    FVec Ideal S512x2048 .f32 :=
  select (cmpi .ne (shapeCast S512x2048 P3 shapeCasts_S1x512x2048_S512x2048) (constantI S512x2048 32 0#32))
    (broadcast S512x2048 (Named.named κ "neg_big" 0xFF333332#32))
    (matmul dot_S512x64_S2048x64_S512x2048_1_1_0_0_n_n none (qs P0) (ks P1) (constant S512x2048 .f32 0x00000000#32))

/-- The row maxima of the masked scores. -/
private def mx (P0 : Vec Ideal S1x512x64 .f32) (P1 : Vec Ideal S1x2048x64 .f32) (P3 : Vec Ideal S1x512x2048 .i32) :
    FVec Ideal S512 .f32 :=
  multiReduction .maximumf [1] S512 (sc P0 P1 P3) 0xFF800000#32 reduces_S512x2048_S512 (.inl rfl) rfl

/-- The scores shifted by their row maximum, exponentiated. -/
private def ex (P0 : Vec Ideal S1x512x64 .f32) (P1 : Vec Ideal S1x2048x64 .f32) (P3 : Vec Ideal S1x512x2048 .i32) :
    FVec Ideal S512x2048 .f32 :=
  exp (subf (sc P0 P1 P3) (broadcastTo S512x2048 (shapeCast S512x1 (mx P0 P1 P3) shapeCasts_S512_S512x1)
    broadcasts_S512x1_S512x2048))

/-- The row sums of the shifted exponentials. -/
private def sm (P0 : Vec Ideal S1x512x64 .f32) (P1 : Vec Ideal S1x2048x64 .f32) (P3 : Vec Ideal S1x512x2048 .i32) :
    FVec Ideal S512 .f32 :=
  multiReduction .add [1] S512 (ex P0 P1 P3) 0x00000000#32 reduces_S512x2048_S512 (.inl rfl) rfl

/-- One over the row sums, as a column. -/
private def rc (P0 : Vec Ideal S1x512x64 .f32) (P1 : Vec Ideal S1x2048x64 .f32) (P3 : Vec Ideal S1x512x2048 .i32) :
    FVec Ideal S512x1 .f32 :=
  divf (broadcast S512x1 (Scalar.ofBits .f32 0x3F800000#32)) (shapeCast S512x1 (sm P0 P1 P3) shapeCasts_S512_S512x1)

/-- The attention block is the shifted exponentials times the column of reciprocals broadcast along the keys. -/
private theorem pay2_eq (P0 : Vec Ideal S1x512x64 .f32) (P1 : Vec Ideal S1x2048x64 .f32) (P3 : Vec Ideal S1x512x2048 .i32) :
    k0_pay2 (F := Ideal) P0 P1 P3 = mulf (ex P0 P1 P3) (broadcastTo S512x2048 (rc P0 P1 P3) broadcasts_S512x1_S512x2048) := rfl

/-- The scaled query block at (p, d). -/
private theorem qs_apply (P0 : Vec Ideal S1x512x64 .f32) (p : Fin 512) (d : Fin 64) :
    qs P0 (ix2 p d) = P0 (ix3 0 p d) * ((1 / 8 : ℝ) : EReal) := by
  show shapeCast S512x64 P0 shapeCasts_S1x512x64_S512x64 (ix2 p d) * Ideal.ofBits .f32 0x3E000000#32 = _
  rw [ofBits_eighth]
  exact congrArg (· * ((1 / 8 : ℝ) : EReal)) (shapeCast_1ab_ab_apply P0 _ p d)

/-- The key matrix at (j, d). -/
private theorem ks_apply (P1 : Vec Ideal S1x2048x64 .f32) (j : Fin 2048) (d : Fin 64) :
    ks P1 (ix2 j d) = P1 (ix3 0 j d) :=
  shapeCast_1ab_ab_apply P1 _ j d

/-! The first product's operand indices, coordinate by coordinate. -/

private theorem lhs_dotA_0 (i : S512x2048.Idx) (q : dot_S512x64_S2048x64_S512x2048_1_1_0_0_n_n.contr.Idx) :
    (dot_S512x64_S2048x64_S512x2048_1_1_0_0_n_n.lhsIdx i q 0).val = (i 0).val := by
  unfold DotDims.lhsIdx
  rw [dif_neg (show ¬(0 : Fin S512x64.rank) ∈ dot_S512x64_S2048x64_S512x2048_1_1_0_0_n_n.lhsBatch by decide), dif_pos (show (0 : Fin S512x64.rank) ∈ dot_S512x64_S2048x64_S512x2048_1_1_0_0_n_n.lhsNonContracting by decide)]
  rfl
private theorem lhs_dotA_1 (i : S512x2048.Idx) (q : dot_S512x64_S2048x64_S512x2048_1_1_0_0_n_n.contr.Idx) :
    (dot_S512x64_S2048x64_S512x2048_1_1_0_0_n_n.lhsIdx i q 1).val = (q ⟨0, by decide⟩).val :=
  dot_S512x64_S2048x64_S512x2048_1_1_0_0_n_n.lhsIdx_val_of_single rfl i q
private theorem rhs_dotA_0 (i : S512x2048.Idx) (q : dot_S512x64_S2048x64_S512x2048_1_1_0_0_n_n.contr.Idx) :
    (dot_S512x64_S2048x64_S512x2048_1_1_0_0_n_n.rhsIdx i q 0).val = (i 1).val := by
  unfold DotDims.rhsIdx
  rw [dif_neg (show ¬(0 : Fin S2048x64.rank) ∈ dot_S512x64_S2048x64_S512x2048_1_1_0_0_n_n.rhsBatch by decide), dif_pos (show (0 : Fin S2048x64.rank) ∈ dot_S512x64_S2048x64_S512x2048_1_1_0_0_n_n.rhsNonContracting by decide)]
  rfl
private theorem rhs_dotA_1 (i : S512x2048.Idx) (q : dot_S512x64_S2048x64_S512x2048_1_1_0_0_n_n.contr.Idx) :
    (dot_S512x64_S2048x64_S512x2048_1_1_0_0_n_n.rhsIdx i q 1).val = (q ⟨0, by decide⟩).val :=
  dot_S512x64_S2048x64_S512x2048_1_1_0_0_n_n.rhsIdx_val_of_single rfl i q

/-- The first product into a zero accumulator at (p, j): the sum over the features of left (p, d) times right (j, d). -/
private theorem matmulA_apply (a : FVec Ideal S512x64 .bf16) (b : FVec Ideal S2048x64 .bf16) (p : Fin 512) (j : Fin 2048) :
    matmul (F := Ideal) dot_S512x64_S2048x64_S512x2048_1_1_0_0_n_n none a b (constant S512x2048 .f32 0x00000000#32) (ix2 p j)
      = ∑ d : Fin 64, a (ix2 p d) * b (ix2 j d) := by
  refine (Ideal.matmul_constant_zero_apply dot_S512x64_S2048x64_S512x2048_1_1_0_0_n_n none a b (ix2 p j)).trans ?_
  rw [← Equiv.sum_comp (ValueIdx.contrEquiv1 dot_S512x64_S2048x64_S512x2048_1_1_0_0_n_n 64 rfl rfl).symm]
  refine Finset.sum_congr rfl fun k _ => ?_
  have hk := ValueIdx.contrEquiv1_symm_val dot_S512x64_S2048x64_S512x2048_1_1_0_0_n_n 64 rfl rfl k
  have el : dot_S512x64_S2048x64_S512x2048_1_1_0_0_n_n.lhsIdx (ix2 p j) ((ValueIdx.contrEquiv1 dot_S512x64_S2048x64_S512x2048_1_1_0_0_n_n 64 rfl rfl).symm k) = ix2 p k := funext fun c => Fin.ext (by
    match c with
    | ⟨0, _⟩ => exact lhs_dotA_0 _ _
    | ⟨1, _⟩ => exact (lhs_dotA_1 _ _).trans hk)
  have er : dot_S512x64_S2048x64_S512x2048_1_1_0_0_n_n.rhsIdx (ix2 p j) ((ValueIdx.contrEquiv1 dot_S512x64_S2048x64_S512x2048_1_1_0_0_n_n 64 rfl rfl).symm k) = ix2 j k := funext fun c => Fin.ext (by
    match c with
    | ⟨0, _⟩ => exact rhs_dotA_0 _ _
    | ⟨1, _⟩ => exact (rhs_dotA_1 _ _).trans hk)
  rw [el, er]

/-! The second product's operand indices. -/

private theorem lhs_dotB_0 (i : S512x64.Idx) (q : dot_S512x2048_S2048x64_S512x64_1_0_0_1_n_n.contr.Idx) :
    (dot_S512x2048_S2048x64_S512x64_1_0_0_1_n_n.lhsIdx i q 0).val = (i 0).val := by
  unfold DotDims.lhsIdx
  rw [dif_neg (show ¬(0 : Fin S512x2048.rank) ∈ dot_S512x2048_S2048x64_S512x64_1_0_0_1_n_n.lhsBatch by decide), dif_pos (show (0 : Fin S512x2048.rank) ∈ dot_S512x2048_S2048x64_S512x64_1_0_0_1_n_n.lhsNonContracting by decide)]
  rfl
private theorem lhs_dotB_1 (i : S512x64.Idx) (q : dot_S512x2048_S2048x64_S512x64_1_0_0_1_n_n.contr.Idx) :
    (dot_S512x2048_S2048x64_S512x64_1_0_0_1_n_n.lhsIdx i q 1).val = (q ⟨0, by decide⟩).val :=
  dot_S512x2048_S2048x64_S512x64_1_0_0_1_n_n.lhsIdx_val_of_single rfl i q
private theorem rhs_dotB_0 (i : S512x64.Idx) (q : dot_S512x2048_S2048x64_S512x64_1_0_0_1_n_n.contr.Idx) :
    (dot_S512x2048_S2048x64_S512x64_1_0_0_1_n_n.rhsIdx i q 0).val = (q ⟨0, by decide⟩).val :=
  dot_S512x2048_S2048x64_S512x64_1_0_0_1_n_n.rhsIdx_val_of_single rfl i q
private theorem rhs_dotB_1 (i : S512x64.Idx) (q : dot_S512x2048_S2048x64_S512x64_1_0_0_1_n_n.contr.Idx) :
    (dot_S512x2048_S2048x64_S512x64_1_0_0_1_n_n.rhsIdx i q 1).val = (i 1).val := by
  unfold DotDims.rhsIdx
  rw [dif_neg (show ¬(1 : Fin S2048x64.rank) ∈ dot_S512x2048_S2048x64_S512x64_1_0_0_1_n_n.rhsBatch by decide), dif_pos (show (1 : Fin S2048x64.rank) ∈ dot_S512x2048_S2048x64_S512x64_1_0_0_1_n_n.rhsNonContracting by decide)]
  rfl

/-- The second product into a zero accumulator at (p, d): the sum over the keys of left (p, j) times right (j, d). -/
private theorem matmulB_apply (a : FVec Ideal S512x2048 .bf16) (b : FVec Ideal S2048x64 .bf16) (p : Fin 512) (d : Fin 64) :
    matmul (F := Ideal) dot_S512x2048_S2048x64_S512x64_1_0_0_1_n_n none a b (constant S512x64 .f32 0x00000000#32) (ix2 p d)
      = ∑ j : Fin 2048, a (ix2 p j) * b (ix2 j d) := by
  refine (Ideal.matmul_constant_zero_apply dot_S512x2048_S2048x64_S512x64_1_0_0_1_n_n none a b (ix2 p d)).trans ?_
  rw [← Equiv.sum_comp (ValueIdx.contrEquiv1 dot_S512x2048_S2048x64_S512x64_1_0_0_1_n_n 2048 rfl rfl).symm]
  refine Finset.sum_congr rfl fun k _ => ?_
  have hk := ValueIdx.contrEquiv1_symm_val dot_S512x2048_S2048x64_S512x64_1_0_0_1_n_n 2048 rfl rfl k
  have el : dot_S512x2048_S2048x64_S512x64_1_0_0_1_n_n.lhsIdx (ix2 p d) ((ValueIdx.contrEquiv1 dot_S512x2048_S2048x64_S512x64_1_0_0_1_n_n 2048 rfl rfl).symm k) = ix2 p k := funext fun c => Fin.ext (by
    match c with
    | ⟨0, _⟩ => exact lhs_dotB_0 _ _
    | ⟨1, _⟩ => exact (lhs_dotB_1 _ _).trans hk)
  have er : dot_S512x2048_S2048x64_S512x64_1_0_0_1_n_n.rhsIdx (ix2 p d) ((ValueIdx.contrEquiv1 dot_S512x2048_S2048x64_S512x64_1_0_0_1_n_n 2048 rfl rfl).symm k) = ix2 k d := funext fun c => Fin.ext (by
    match c with
    | ⟨0, _⟩ => exact (rhs_dotB_0 _ _).trans hk
    | ⟨1, _⟩ => exact rhs_dotB_1 _ _)
  rw [el, er]

/-- The named constant is the bottom element, by the table. -/
private theorem named_neg_big : Named.named (F := Ideal) κ "neg_big" (φ := .f32) 0xFF333332#32 = ⊥ :=
  IdealRules.named_const.ideal_named_scalar _ _ _ _ rfl

/-- The comparison "not equal to zero" gives the bit one exactly on the words that are not zero. -/
private theorem cmpi_ne_zero_of_ne {w : BitVec 32} (h : w ≠ 0#32) : IntOp.cmpi .ne w 0#32 = 1#1 := by
  have hb : (w != 0#32) = true := bne_iff_ne.mpr h
  show BitVec.ofBool (w != 0#32) = 1#1
  rw [hb]
  rfl

private theorem cmpi_ne_zero_self : IntOp.cmpi .ne (0#32 : BitVec 32) 0#32 = 0#1 := by decide

/-- The masked score at (p, j). -/
private theorem sc_apply (P0 : Vec Ideal S1x512x64 .f32) (P1 : Vec Ideal S1x2048x64 .f32) (P3 : Vec Ideal S1x512x2048 .i32)
    (p : Fin 512) (j : Fin 2048) : sc P0 P1 P3 (ix2 p j) = blockScore P0 P1 P3 p j := by
  show Scalar.select (IntOp.cmpi .ne (shapeCast S512x2048 P3 shapeCasts_S1x512x2048_S512x2048 (ix2 p j)) 0#32)
      (Named.named (F := Ideal) κ "neg_big" (φ := .f32) 0xFF333332#32)
      (matmul (F := Ideal) dot_S512x64_S2048x64_S512x2048_1_1_0_0_n_n none (qs P0) (ks P1) (constant S512x2048 .f32 0x00000000#32) (ix2 p j))
    = if P3 (ix3 0 p j) = 0#32 then ∑ d : Fin 64, (P0 (ix3 0 p d) * ((1 / 8 : ℝ) : EReal)) * P1 (ix3 0 j d) else ⊥
  rw [shapeCast_1ab_ab_apply P3 _ p j, matmulA_apply, named_neg_big]
  by_cases h : P3 (ix3 0 p j) = 0#32
  · rw [if_pos h, h, cmpi_ne_zero_self, select_zero]
    exact Finset.sum_congr rfl fun d _ => by rw [qs_apply, ks_apply]
  · rw [if_neg h, cmpi_ne_zero_of_ne h, select_one]

/-- Row p of the block with key k put back is (p, k). -/
private theorem lift_row (h : S512x2048.Reduces [1] S512) (p : Fin 512) (k : Fin 2048) :
    h.lift (ix1 p) k = ix2 p k := by
  funext c; apply Fin.ext
  fin_cases c <;> rfl

/-- The row maximum at p. -/
private theorem mx_apply (P0 : Vec Ideal S1x512x64 .f32) (P1 : Vec Ideal S1x2048x64 .f32) (P3 : Vec Ideal S1x512x2048 .i32)
    (p : Fin 512) : mx P0 P1 P3 (ix1 p) = rowMax (blockScore P0 P1 P3 p) := by
  refine (Ideal.multiReduction_maximumf_single (sc P0 P1 P3) 0xFF800000#32 reduces_S512x2048_S512 _ _ (ix1 p)).trans ?_
  show (Finset.univ : Finset (Fin 2048)).fold max (Ideal.ofBits .f32 0xFF800000#32)
      (sc P0 P1 P3 ∘ reduces_S512x2048_S512.lift (ix1 p))
    = (Finset.univ : Finset (Fin 2048)).fold max ⊥ (blockScore P0 P1 P3 p)
  have hf : (sc P0 P1 P3 ∘ reduces_S512x2048_S512.lift (ix1 p)) = blockScore P0 P1 P3 p :=
    funext fun k => (congrArg (sc P0 P1 P3) (lift_row _ p k)).trans (sc_apply P0 P1 P3 p k)
  rw [hf, ofBits_neg_inf]
  rfl

/-- A vector of 512 entries cast to one column reads entry p at (p, u). -/
private theorem shapeCast_col_apply {α : Type} (v : S512.Idx → α) (h : S512.ShapeCasts S512x1) (p : Fin 512) (u : Fin 1) :
    shapeCast S512x1 v h (ix2 p u) = v (ix1 p) :=
  shapeCast_apply v h _ _ (by
    have hu : u.val = 0 := by omega
    rw [Shape.rowMajor_val_one, Shape.rowMajor_val_two]
    show p.val = p.val * 1 + u.val
    omega)

/-- One column broadcast over 2048 lanes reads, at (p, j), the column's entry p. -/
private theorem broadcastTo_col_apply {α : Type} (w : S512x1.Idx → α) (h : S512x1.Broadcasts S512x2048) (p : Fin 512) (j : Fin 2048) :
    broadcastTo S512x2048 w h (ix2 p j) = w (ix2 p (0 : Fin 1)) := by
  refine broadcastTo_apply w h (ix2 p j) (ix2 p (0 : Fin 1)) fun ax => ?_
  match ax with
  | ⟨0, _⟩ => rfl
  | ⟨1, _⟩ => rfl

/-- The shifted exponential at (p, j). -/
private theorem ex_apply (P0 : Vec Ideal S1x512x64 .f32) (P1 : Vec Ideal S1x2048x64 .f32) (P3 : Vec Ideal S1x512x2048 .i32)
    (p : Fin 512) (j : Fin 2048) : ex P0 P1 P3 (ix2 p j) = expRow (blockScore P0 P1 P3 p) j := by
  show Ideal.exp (sc P0 P1 P3 (ix2 p j)
      - broadcastTo S512x2048 (shapeCast S512x1 (mx P0 P1 P3) shapeCasts_S512_S512x1) broadcasts_S512x1_S512x2048 (ix2 p j))
    = Ideal.exp (blockScore P0 P1 P3 p j - rowMax (blockScore P0 P1 P3 p))
  rw [broadcastTo_col_apply, shapeCast_col_apply, mx_apply, sc_apply]

/-- The normaliser at p. -/
private theorem sm_apply (P0 : Vec Ideal S1x512x64 .f32) (P1 : Vec Ideal S1x2048x64 .f32) (P3 : Vec Ideal S1x512x2048 .i32)
    (p : Fin 512) : sm P0 P1 P3 (ix1 p) = rowSum (blockScore P0 P1 P3 p) := by
  refine (Ideal.multiReduction_add_single (ex P0 P1 P3) 0x00000000#32 reduces_S512x2048_S512 _ _ (ix1 p)).trans ?_
  show ∑ k : Fin 2048, ex P0 P1 P3 (reduces_S512x2048_S512.lift (ix1 p) k) = ∑ k : Fin 2048, expRow (blockScore P0 P1 P3 p) k
  exact Finset.sum_congr rfl fun k _ => (congrArg (ex P0 P1 P3) (lift_row _ p k)).trans (ex_apply P0 P1 P3 p k)

/-- The reciprocal of the normaliser at (p, 0). -/
private theorem rc_apply (P0 : Vec Ideal S1x512x64 .f32) (P1 : Vec Ideal S1x2048x64 .f32) (P3 : Vec Ideal S1x512x2048 .i32)
    (p : Fin 512) : rc P0 P1 P3 (ix2 p (0 : Fin 1)) = Ideal.div 1 (rowSum (blockScore P0 P1 P3 p)) := by
  show Ideal.div (Ideal.ofBits .f32 0x3F800000#32) (shapeCast S512x1 (sm P0 P1 P3) shapeCasts_S512_S512x1 (ix2 p (0 : Fin 1))) = _
  rw [ofBits_one, shapeCast_col_apply, sm_apply]

/-- The attention block at row `p`, key `j`. -/
theorem pay2_apply (P0 : Vec Ideal S1x512x64 .f32) (P1 : Vec Ideal S1x2048x64 .f32) (P3 : Vec Ideal S1x512x2048 .i32)
    (p : Fin 512) (j : Fin 2048) :
    k0_pay2 (F := Ideal) P0 P1 P3 (ix2 p j)
      = expRow (blockScore P0 P1 P3 p) j * Ideal.div 1 (rowSum (blockScore P0 P1 P3 p)) := by
  rw [pay2_eq]
  show ex P0 P1 P3 (ix2 p j) * broadcastTo S512x2048 (rc P0 P1 P3) broadcasts_S512x1_S512x2048 (ix2 p j) = _
  rw [broadcastTo_col_apply, rc_apply, ex_apply]

/-- The output block is the product of the attention block with the value block as a matrix. -/
private theorem pay4_eq (P0 : Vec Ideal S1x512x64 .f32) (P1 P2 : Vec Ideal S1x2048x64 .f32) (P3 : Vec Ideal S1x512x2048 .i32) :
    k0_pay4 (F := Ideal) P0 P1 P2 P3
      = matmul (F := Ideal) dot_S512x2048_S2048x64_S512x64_1_0_0_1_n_n none
          (truncf .bf16 (k0_pay2 (F := Ideal) P0 P1 P3) bitsLt_bf16_f32)
          (truncf .bf16 (shapeCast S2048x64 P2 shapeCasts_S1x2048x64_S2048x64) bitsLt_bf16_f32)
          (constant S512x64 .f32 0x00000000#32) := rfl

/-- The output block at row `p`, feature `d`: the attention block's row `p` against column `d` of the value block. -/
theorem pay4_apply (P0 : Vec Ideal S1x512x64 .f32) (P1 P2 : Vec Ideal S1x2048x64 .f32) (P3 : Vec Ideal S1x512x2048 .i32)
    (p : Fin 512) (d : Fin 64) :
    k0_pay4 (F := Ideal) P0 P1 P2 P3 (ix2 p d)
      = ∑ j : Fin 2048, k0_pay2 (F := Ideal) P0 P1 P3 (ix2 p j) * P2 (ix3 0 j d) := by
  rw [pay4_eq]
  refine (matmulB_apply _ _ p d).trans ?_
  refine Finset.sum_congr rfl fun j _ => ?_
  show k0_pay2 (F := Ideal) P0 P1 P3 (ix2 p j) * shapeCast S2048x64 P2 shapeCasts_S1x2048x64_S2048x64 (ix2 j d) = _
  rw [shapeCast_1ab_ab_apply]

end Cert.Attn

end
-- ==== Proof.BlockValue.lean ====
/-
  The kernel body's blocks against the specification, over arbitrary block contents.

  Suppose the query block holds rows `row p` of batch `b` of the queries, the key and value blocks hold batch `b` of the
  keys and values, and the mask block holds the same rows of the mask, each bit widened to a word. Then the body's
  score row is the specification's: a widened bit is the zero word exactly when the bit is not set, and for real
  queries and keys the dot product with the query entries pre-multiplied by 1/8 is the dot product divided by 8.
  A score row of real queries and keys has no entry at the top element, and it has an entry above the bottom element
  as soon as one key of the row is unmasked; on such a row the body's shifted exponential times the reciprocal of the
  normaliser is the softmax. So the attention block is the specification's attention probabilities at those rows,
  and the output block, its product with the value block, is the specification's output there.
-/
import proofs.«429906_j24300924961205_3_alg».proof.Proof.KernelPay

noncomputable section

namespace Cert.Attn

open Idealize.ShloMosaic Idealize.ShloMosaic.ValueIdx Cert.KernelIdeal Cert.KernelIdeal.Gen

/-- A bit widened to a word is the zero word exactly when the bit is not set. -/
theorem widen_eq_zero_iff (w : BitVec 1) : w.setWidth 32 = 0#32 ↔ w ≠ 1#1 := by
  rcases BitVec.eq_zero_or_eq_one w with rfl | rfl <;> decide

variable (q k v : SQ.Idx → EReal) (msk : SA.Idx → BitVec 1)

/-- With real queries and keys no score is the top element: a masked score is the bottom element, an unmasked one real. -/
theorem score_ne_top (hq : ∀ x, q x ≠ ⊤ ∧ q x ≠ ⊥) (hk : ∀ x, k x ≠ ⊤ ∧ k x ≠ ⊥) (b : Fin 64) (i j : Fin 2048) :
    score q k msk b i j ≠ ⊤ := by
  unfold score
  by_cases hmj : msk (ix3 b i j) = 1#1
  · rw [if_pos hmj]; exact bot_ne_top
  · rw [if_neg hmj]
    exact dot_div_ne_top (fun d => q (ix3 b i d)) (fun d => k (ix3 b j d)) (fun d => hq _) (fun d => hk _)

/-- With real queries and keys a row with an unmasked key has a score above the bottom element. -/
theorem score_exists_ne_bot (hq : ∀ x, q x ≠ ⊤ ∧ q x ≠ ⊥) (hk : ∀ x, k x ≠ ⊤ ∧ k x ≠ ⊥) (b : Fin 64) (i : Fin 2048)
    (hm : ∃ j : Fin 2048, msk (ix3 b i j) ≠ 1#1) : ∃ j, score q k msk b i j ≠ ⊥ := by
  obtain ⟨j, hj⟩ := hm
  refine ⟨j, ?_⟩
  unfold score
  rw [if_neg hj]
  exact dot_div_ne_bot (fun d => q (ix3 b i d)) (fun d => k (ix3 b j d)) (fun d => hq _) (fun d => hk _)

variable (B0 : Vec Ideal S1x512x64 .f32) (B1 B2 : Vec Ideal S1x2048x64 .f32) (B3 : Vec Ideal S1x512x2048 .i32)
variable (b : Fin 64) (row : Fin 512 → Fin 2048)

/-- The body's score row of block row `p` is the specification's score row of query `row p`. -/
theorem blockScore_eq (hq : ∀ x, q x ≠ ⊤ ∧ q x ≠ ⊥) (hk : ∀ x, k x ≠ ⊤ ∧ k x ≠ ⊥)
    (h0 : ∀ (p : Fin 512) (d : Fin 64), B0 (ix3 0 p d) = q (ix3 b (row p) d))
    (h1 : ∀ (j : Fin 2048) (d : Fin 64), B1 (ix3 0 j d) = k (ix3 b j d))
    (h3 : ∀ (p : Fin 512) (j : Fin 2048), B3 (ix3 0 p j) = (msk (ix3 b (row p) j)).setWidth 32)
    (p : Fin 512) : blockScore B0 B1 B3 p = score q k msk b (row p) := by
  funext j
  unfold blockScore score
  rw [h3 p j]
  by_cases hmj : msk (ix3 b (row p) j) = 1#1
  · rw [if_neg (fun h => (widen_eq_zero_iff _).mp h hmj), if_pos hmj]
  · rw [if_pos ((widen_eq_zero_iff _).mpr hmj), if_neg hmj]
    have e : (∑ d : Fin 64, (B0 (ix3 0 p d) * ((1 / 8 : ℝ) : EReal)) * B1 (ix3 0 j d))
        = ∑ d : Fin 64, (q (ix3 b (row p) d) * ((1 / 8 : ℝ) : EReal)) * k (ix3 b j d) :=
      Finset.sum_congr rfl fun d _ => by rw [h0 p d, h1 j d]
    rw [e]
    exact scaled_dot (fun d => q (ix3 b (row p) d)) (fun d => k (ix3 b j d)) (fun d => hq _) (fun d => hk _)

/-- The attention block at row `p`, key `j` is the attention probability of key `j` for query `row p`. -/
theorem attn_block (hq : ∀ x, q x ≠ ⊤ ∧ q x ≠ ⊥) (hk : ∀ x, k x ≠ ⊤ ∧ k x ≠ ⊥)
    (hm : ∀ (b : Fin 64) (i : Fin 2048), ∃ j : Fin 2048, msk (ix3 b i j) ≠ 1#1)
    (h0 : ∀ (p : Fin 512) (d : Fin 64), B0 (ix3 0 p d) = q (ix3 b (row p) d))
    (h1 : ∀ (j : Fin 2048) (d : Fin 64), B1 (ix3 0 j d) = k (ix3 b j d))
    (h3 : ∀ (p : Fin 512) (j : Fin 2048), B3 (ix3 0 p j) = (msk (ix3 b (row p) j)).setWidth 32)
    (p : Fin 512) (j : Fin 2048) :
    k0_pay2 (F := Ideal) B0 B1 B3 (ix2 p j) = attn q k msk b (row p) j := by
  rw [pay2_apply, blockScore_eq q k msk B0 B1 B3 b row hq hk h0 h1 h3 p]
  exact mul_recip_eq_softmax _ (fun j => score_ne_top q k msk hq hk b (row p) j)
    (score_exists_ne_bot q k msk hq hk b (row p) (hm b (row p))) j

/-- The output block at row `p`, feature `d` is the specification's output of query `row p` at feature `d`. -/
theorem out_block (hq : ∀ x, q x ≠ ⊤ ∧ q x ≠ ⊥) (hk : ∀ x, k x ≠ ⊤ ∧ k x ≠ ⊥)
    (hm : ∀ (b : Fin 64) (i : Fin 2048), ∃ j : Fin 2048, msk (ix3 b i j) ≠ 1#1)
    (h0 : ∀ (p : Fin 512) (d : Fin 64), B0 (ix3 0 p d) = q (ix3 b (row p) d))
    (h1 : ∀ (j : Fin 2048) (d : Fin 64), B1 (ix3 0 j d) = k (ix3 b j d))
    (h2 : ∀ (j : Fin 2048) (d : Fin 64), B2 (ix3 0 j d) = v (ix3 b j d))
    (h3 : ∀ (p : Fin 512) (j : Fin 2048), B3 (ix3 0 p j) = (msk (ix3 b (row p) j)).setWidth 32)
    (p : Fin 512) (d : Fin 64) :
    k0_pay4 (F := Ideal) B0 B1 B2 B3 (ix2 p d) = out q k v msk b (row p) d := by
  rw [pay4_apply]
  unfold out
  exact Finset.sum_congr rfl fun j _ => by
    rw [attn_block q k msk B0 B1 B3 b row hq hk hm h0 h1 h3 p j, h2 j d]

end Cert.Attn

end
-- ==== Proof.Blocks.lean ====
/-
  From the kernel's blocks to its two result arrays.

  The grid has 64 × 4 points; point `t` works on batch `t / 4` and on query rows `512 · (t % 4) … + 511`. Its query,
  mask, output and attention blocks are those rows of batch `t / 4`; its key and value blocks are all of that batch.
  The mask window's array is the mask with each bit widened to a word by the one host operation before the region.
  Read through those blocks the body's two stores are the specification's attention probabilities and output at the
  point's rows, the 256 blocks cover both result arrays, and so after the run the arrays hold the specification's
  two functions of the argument arrays.
-/
import proofs.«429906_j24300924961205_3_alg».proof.Proof.Gen.KernelIdeal.Value
import proofs.«429906_j24300924961205_3_alg».proof.Proof.BlockValue
import Idealize.ShloMosaic.Lib.Pipeline.Value
import Idealize.ShloMosaic.Lib.StableHlo.Run

set_option maxRecDepth 16384

noncomputable section

open Idealize.ShloMosaic Idealize.ShloMosaic.TcCoe Idealize.SL.Sem Idealize.ShloMosaic.ValueIdx
open Idealize.ShloMosaic.Pipeline (Dat)

namespace Cert.Attn.Run

open Cert.KernelIdeal Cert.KernelIdeal.Gen Cert.KernelIdeal.Value

variable (m : (ℓ : Loc nD τ sig) → Buf (Elt Ideal) ℓ) (ρ : Dev nD → PrngReg)

theorem hz3 : (![0, 0, 0] : Fin 3 → Nat) = fun _ => 0 := funext fun a => by fin_cases a <;> rfl

/-- The argument arrays of core `c`, at their literal types. -/
abbrev qArr (c : Dev nD) : S64x2048x64.Idx → EReal := m ((c : Thread nD τ).loc main_arg0)
abbrev kArr (c : Dev nD) : S64x2048x64.Idx → EReal := m ((c : Thread nD τ).loc main_arg1)
abbrev vArr (c : Dev nD) : S64x2048x64.Idx → EReal := m ((c : Thread nD τ).loc main_arg2)
abbrev mArr (c : Dev nD) : S64x2048x2048.Idx → BitVec 1 := m ((c : Thread nD τ).loc main_arg3)

/-- The printed index maps, decided over the grid: the batch is `t / 4`, the row block `t % 4`. -/
theorem idx_facts : ∀ t : Fin cfg0.N,
    (win0_0.index t (0 : Fin 3) = t.val / 4 ∧ win0_0.index t (1 : Fin 3) = t.val % 4 ∧ win0_0.index t (2 : Fin 3) = 0)
    ∧ (win0_1.index t (0 : Fin 3) = t.val / 4 ∧ win0_1.index t (1 : Fin 3) = 0 ∧ win0_1.index t (2 : Fin 3) = 0)
    ∧ (win0_2.index t (0 : Fin 3) = t.val / 4 ∧ win0_2.index t (1 : Fin 3) = 0 ∧ win0_2.index t (2 : Fin 3) = 0)
    ∧ (win0_3.index t (0 : Fin 3) = t.val / 4 ∧ win0_3.index t (1 : Fin 3) = t.val % 4 ∧ win0_3.index t (2 : Fin 3) = 0)
    ∧ (win0_4.index t (0 : Fin 3) = t.val / 4 ∧ win0_4.index t (1 : Fin 3) = t.val % 4 ∧ win0_4.index t (2 : Fin 3) = 0)
    ∧ (win0_5.index t (0 : Fin 3) = t.val / 4 ∧ win0_5.index t (1 : Fin 3) = t.val % 4 ∧ win0_5.index t (2 : Fin 3) = 0) :=
  (by decide +kernel : ∀ t : Fin grid0.N, _)

theorem t_lt (t : Fin cfg0.N) : t.val < 256 := by
  have h := t.isLt
  have hN : cfg0.N = 256 := N_0
  omega

/-- The batch point `t` works on. -/
def bt (t : Fin cfg0.N) : Fin 64 := ⟨t.val / 4, by have := t_lt t; omega⟩
/-- The query row under row `p` of point `t`'s blocks. -/
def rowOf (t : Fin cfg0.N) (p : Fin 512) : Fin 2048 := ⟨t.val % 4 * 512 + p.val, by have := p.isLt; omega⟩

/-- The mask window's array: the one host operation before the region widens each mask bit to a word. -/
theorem V_main_v0 (c : Dev nD) :
    (V m c main_v0 : S64x2048x2048.Idx → BitVec 32) = fun x => (mArr m c x).setWidth 32 := by
  dsimp only [V, hostOps0]
  after_results
  rfl

/-- The query block at point `t`: rows `rowOf t p` of batch `bt t` of the queries. -/
theorem qblk_apply (c : Dev nD) (t : Fin cfg0.N) (p : Fin 512) (d : Fin 64) :
    (iblk m c 0 t : Vec Ideal S1x512x64 .f32) (ix3 0 p d) = qArr m c (ix3 (bt t) (rowOf t p) d) := by
  obtain ⟨⟨e0, e1, e2⟩, -⟩ := idx_facts t
  unfold iblk
  rw [View.read_apply]
  show V m c main_arg0 _ = m (c.tc.loc main_arg0) _
  rw [V_main_arg0]
  congr 1
  funext a
  apply Fin.ext
  match a with
  | ⟨0, _⟩ => show win0_0.index t (0 : Fin 3) * 1 + 1 * 0 = t.val / 4; omega
  | ⟨1, _⟩ => show win0_0.index t (1 : Fin 3) * 512 + 1 * p.val = t.val % 4 * 512 + p.val; omega
  | ⟨2, _⟩ => show win0_0.index t (2 : Fin 3) * 64 + 1 * d.val = d.val; omega

/-- The key block at point `t`: all of batch `bt t` of the keys. -/
theorem kblk_apply (c : Dev nD) (t : Fin cfg0.N) (j : Fin 2048) (d : Fin 64) :
    (iblk m c 1 t : Vec Ideal S1x2048x64 .f32) (ix3 0 j d) = kArr m c (ix3 (bt t) j d) := by
  obtain ⟨-, ⟨e0, e1, e2⟩, -⟩ := idx_facts t
  unfold iblk
  rw [View.read_apply]
  show V m c main_arg1 _ = m (c.tc.loc main_arg1) _
  rw [V_main_arg1]
  congr 1
  funext a
  apply Fin.ext
  match a with
  | ⟨0, _⟩ => show win0_1.index t (0 : Fin 3) * 1 + 1 * 0 = t.val / 4; omega
  | ⟨1, _⟩ => show win0_1.index t (1 : Fin 3) * 2048 + 1 * j.val = j.val; omega
  | ⟨2, _⟩ => show win0_1.index t (2 : Fin 3) * 64 + 1 * d.val = d.val; omega

/-- The value block at point `t`: all of batch `bt t` of the values. -/
theorem vblk_apply (c : Dev nD) (t : Fin cfg0.N) (j : Fin 2048) (d : Fin 64) :
    (iblk m c 2 t : Vec Ideal S1x2048x64 .f32) (ix3 0 j d) = vArr m c (ix3 (bt t) j d) := by
  obtain ⟨-, -, ⟨e0, e1, e2⟩, -⟩ := idx_facts t
  unfold iblk
  rw [View.read_apply]
  show V m c main_arg2 _ = m (c.tc.loc main_arg2) _
  rw [V_main_arg2]
  congr 1
  funext a
  apply Fin.ext
  match a with
  | ⟨0, _⟩ => show win0_2.index t (0 : Fin 3) * 1 + 1 * 0 = t.val / 4; omega
  | ⟨1, _⟩ => show win0_2.index t (1 : Fin 3) * 2048 + 1 * j.val = j.val; omega
  | ⟨2, _⟩ => show win0_2.index t (2 : Fin 3) * 64 + 1 * d.val = d.val; omega

/-- The mask block at point `t`: rows `rowOf t p` of batch `bt t` of the mask, each bit widened to a word. -/
theorem mblk_apply (c : Dev nD) (t : Fin cfg0.N) (p : Fin 512) (j : Fin 2048) :
    (iblk m c 3 t : Vec Ideal S1x512x2048 .i32) (ix3 0 p j) = (mArr m c (ix3 (bt t) (rowOf t p) j)).setWidth 32 := by
  obtain ⟨-, -, -, ⟨e0, e1, e2⟩, -⟩ := idx_facts t
  unfold iblk
  rw [View.read_apply]
  show V m c main_v0 _ = _
  rw [V_main_v0]
  show (mArr m c _).setWidth 32 = (mArr m c _).setWidth 32
  congr 2
  funext a
  apply Fin.ext
  match a with
  | ⟨0, _⟩ => show win0_3.index t (0 : Fin 3) * 1 + 1 * 0 = t.val / 4; omega
  | ⟨1, _⟩ => show win0_3.index t (1 : Fin 3) * 512 + 1 * p.val = t.val % 4 * 512 + p.val; omega
  | ⟨2, _⟩ => show win0_3.index t (2 : Fin 3) * 2048 + 1 * j.val = j.val; omega

/-- What the precondition gives of core `c`'s arrays: real queries and keys, and an unmasked key in every query row. -/
def Good (c : Dev nD) : Prop :=
  (∀ x, qArr m c x ≠ ⊤ ∧ qArr m c x ≠ ⊥) ∧ (∀ x, kArr m c x ≠ ⊤ ∧ kArr m c x ≠ ⊥)
    ∧ ∀ (b : Fin 64) (i : Fin 2048), ∃ j : Fin 2048, mArr m c (ix3 b i j) ≠ 1#1

/-- What point `t` writes back to the attention array is block `t` of the specification's attention probabilities. -/
theorem flushed5_eq (c : Dev nD) (hg : Good m c) (t : Fin cfg0.N) :
    (dats m 0 c).flushed 5 t
      = ((cfg0.win 5).blk t).view.read (Elt Ideal) (attnArr (qArr m c) (kArr m c) (mArr m c)) := by
  obtain ⟨hq, hk, hm⟩ := hg
  obtain ⟨-, -, -, -, -, ⟨e0, e1, e2⟩⟩ := idx_facts t
  rw [flushed5]
  funext y
  show out0_5 (iblk m c 0 t) (iblk m c 1 t) (iblk m c 2 t) (iblk m c 3 t) y
    = attnArr (qArr m c) (kArr m c) (mArr m c) (((cfg0.win 5).blk t).view.emb y)
  unfold out0_5
  simp only [View.ld_unit_zero (S := S1x512x64) hz3, View.ld_unit_zero (S := S1x2048x64) hz3,
    View.ld_unit_zero (S := S1x512x2048) hz3]
  refine (canon5_eq _ _ _ y).trans ?_
  show k0_pay2 (F := Ideal) (iblk m c 0 t) (iblk m c 1 t) (iblk m c 3 t) (ix5_0 y) = _
  have hy0 : (y 0).val < 1 := (y 0).isLt
  have hy1 : (y 1).val < 512 := (y 1).isLt
  have hy2 : (y 2).val < 2048 := (y 2).isLt
  have hy : ix5_0 y = ix2 (⟨(y 1).val, hy1⟩ : Fin 512) (⟨(y 2).val, hy2⟩ : Fin 2048) :=
    funext fun a => Fin.ext (by match a with | ⟨0, _⟩ => rfl | ⟨1, _⟩ => rfl)
  rw [hy]
  refine (attn_block (qArr m c) (kArr m c) (mArr m c) (iblk m c 0 t) (iblk m c 1 t) (iblk m c 3 t) (bt t) (rowOf t)
    hq hk hm (qblk_apply m c t) (kblk_apply m c t) (mblk_apply m c t) ⟨(y 1).val, hy1⟩ ⟨(y 2).val, hy2⟩).trans ?_
  unfold attnArr
  have i0 : (((cfg0.win 5).blk t).view.emb y) 0 = bt t :=
    Fin.ext (by show win0_5.index t (0 : Fin 3) * 1 + 1 * (y 0).val = t.val / 4; omega)
  have i1 : (((cfg0.win 5).blk t).view.emb y) 1 = rowOf t ⟨(y 1).val, hy1⟩ :=
    Fin.ext (by show win0_5.index t (1 : Fin 3) * 512 + 1 * (y 1).val = t.val % 4 * 512 + (y 1).val; omega)
  have i2 : (((cfg0.win 5).blk t).view.emb y) 2 = (⟨(y 2).val, hy2⟩ : Fin 2048) :=
    Fin.ext (by show win0_5.index t (2 : Fin 3) * 2048 + 1 * (y 2).val = (y 2).val; omega)
  rw [i0, i1, i2]

/-- What point `t` writes back to the output array is block `t` of the specification's output. -/
theorem flushed4_eq (c : Dev nD) (hg : Good m c) (t : Fin cfg0.N) :
    (dats m 0 c).flushed 4 t
      = ((cfg0.win 4).blk t).view.read (Elt Ideal) (outArr (qArr m c) (kArr m c) (vArr m c) (mArr m c)) := by
  obtain ⟨hq, hk, hm⟩ := hg
  obtain ⟨-, -, -, -, ⟨e0, e1, e2⟩, -⟩ := idx_facts t
  rw [flushed4]
  funext y
  show out0_4 (iblk m c 0 t) (iblk m c 1 t) (iblk m c 2 t) (iblk m c 3 t) y
    = outArr (qArr m c) (kArr m c) (vArr m c) (mArr m c) (((cfg0.win 4).blk t).view.emb y)
  unfold out0_4
  simp only [View.ld_unit_zero (S := S1x512x64) hz3, View.ld_unit_zero (S := S1x2048x64) hz3,
    View.ld_unit_zero (S := S1x512x2048) hz3]
  refine (canon4_eq _ _ _ _ y).trans ?_
  show k0_pay4 (F := Ideal) (iblk m c 0 t) (iblk m c 1 t) (iblk m c 2 t) (iblk m c 3 t) (ix4_0 y) = _
  have hy0 : (y 0).val < 1 := (y 0).isLt
  have hy1 : (y 1).val < 512 := (y 1).isLt
  have hy2 : (y 2).val < 64 := (y 2).isLt
  have hy : ix4_0 y = ix2 (⟨(y 1).val, hy1⟩ : Fin 512) (⟨(y 2).val, hy2⟩ : Fin 64) :=
    funext fun a => Fin.ext (by match a with | ⟨0, _⟩ => rfl | ⟨1, _⟩ => rfl)
  rw [hy]
  refine (out_block (qArr m c) (kArr m c) (vArr m c) (mArr m c) (iblk m c 0 t) (iblk m c 1 t) (iblk m c 2 t)
    (iblk m c 3 t) (bt t) (rowOf t) hq hk hm (qblk_apply m c t) (kblk_apply m c t) (vblk_apply m c t)
    (mblk_apply m c t) ⟨(y 1).val, hy1⟩ ⟨(y 2).val, hy2⟩).trans ?_
  unfold outArr
  have i0 : (((cfg0.win 4).blk t).view.emb y) 0 = bt t :=
    Fin.ext (by show win0_4.index t (0 : Fin 3) * 1 + 1 * (y 0).val = t.val / 4; omega)
  have i1 : (((cfg0.win 4).blk t).view.emb y) 1 = rowOf t ⟨(y 1).val, hy1⟩ :=
    Fin.ext (by show win0_4.index t (1 : Fin 3) * 512 + 1 * (y 1).val = t.val % 4 * 512 + (y 1).val; omega)
  have i2 : (((cfg0.win 4).blk t).view.emb y) 2 = (⟨(y 2).val, hy2⟩ : Fin 64) :=
    Fin.ext (by show win0_4.index t (2 : Fin 3) * 64 + 1 * (y 2).val = (y 2).val; omega)
  rw [i0, i1, i2]

/-- An index of the attention array is in point `t`'s block iff each coordinate is in the block's range on its axis. -/
theorem mem_blk5 (t : Fin cfg0.N) (i : S64x2048x2048.Idx) :
    i ∈ ((cfg0.win 5).blk t).view.set ↔ ∀ a : Fin 3, win0_5.index t a * S1x512x2048.size a ≤ (i a).val
      ∧ (i a).val < win0_5.index t a * S1x512x2048.size a + S1x512x2048.size a := by
  show i ∈ ((View.whole main_v1_1).slice (win0_5.rect t)).set ↔ _
  rw [View.set_slice_whole, Rect.mem_set_unit]
  exact Iff.rfl

/-- The same for the output array. -/
theorem mem_blk4 (t : Fin cfg0.N) (i : S64x2048x64.Idx) :
    i ∈ ((cfg0.win 4).blk t).view.set ↔ ∀ a : Fin 3, win0_4.index t a * S1x512x64.size a ≤ (i a).val
      ∧ (i a).val < win0_4.index t a * S1x512x64.size a + S1x512x64.size a := by
  show i ∈ ((View.whole main_v1_0).slice (win0_4.rect t)).set ↔ _
  rw [View.set_slice_whole, Rect.mem_set_unit]
  exact Iff.rfl

/-- Every index of the attention array lies in the block of the point of its batch and row block. -/
theorem cover5 (i : S64x2048x2048.Idx) :
    ∃ t : Fin cfg0.N, (cfg0.win 5).flush t = true ∧ i ∈ ((cfg0.win 5).blk t).view.set := by
  have h0 : (i 0).val < 64 := (i 0).isLt
  have h1 : (i 1).val < 2048 := (i 1).isLt
  have h2 : (i 2).val < 2048 := (i 2).isLt
  have hN : cfg0.N = 256 := N_0
  obtain ⟨t, ht⟩ : ∃ t : Fin cfg0.N, t.val = (i 0).val * 4 + (i 1).val / 512 := ⟨⟨(i 0).val * 4 + (i 1).val / 512, by omega⟩, rfl⟩
  obtain ⟨-, -, -, -, -, ⟨e0, e1, e2⟩⟩ := idx_facts t
  refine ⟨t, flush0_5 t, ?_⟩
  rw [mem_blk5]
  intro a
  match a with
  | ⟨0, _⟩ => show win0_5.index t (0 : Fin 3) * 1 ≤ (i 0).val ∧ (i 0).val < win0_5.index t (0 : Fin 3) * 1 + 1; omega
  | ⟨1, _⟩ => show win0_5.index t (1 : Fin 3) * 512 ≤ (i 1).val ∧ (i 1).val < win0_5.index t (1 : Fin 3) * 512 + 512; omega
  | ⟨2, _⟩ => show win0_5.index t (2 : Fin 3) * 2048 ≤ (i 2).val ∧ (i 2).val < win0_5.index t (2 : Fin 3) * 2048 + 2048; omega

/-- Every index of the output array lies in the block of the point of its batch and row block. -/
theorem cover4 (i : S64x2048x64.Idx) :
    ∃ t : Fin cfg0.N, (cfg0.win 4).flush t = true ∧ i ∈ ((cfg0.win 4).blk t).view.set := by
  have h0 : (i 0).val < 64 := (i 0).isLt
  have h1 : (i 1).val < 2048 := (i 1).isLt
  have h2 : (i 2).val < 64 := (i 2).isLt
  have hN : cfg0.N = 256 := N_0
  obtain ⟨t, ht⟩ : ∃ t : Fin cfg0.N, t.val = (i 0).val * 4 + (i 1).val / 512 := ⟨⟨(i 0).val * 4 + (i 1).val / 512, by omega⟩, rfl⟩
  obtain ⟨-, -, -, -, ⟨e0, e1, e2⟩, -⟩ := idx_facts t
  refine ⟨t, flush0_4 t, ?_⟩
  rw [mem_blk4]
  intro a
  match a with
  | ⟨0, _⟩ => show win0_4.index t (0 : Fin 3) * 1 ≤ (i 0).val ∧ (i 0).val < win0_4.index t (0 : Fin 3) * 1 + 1; omega
  | ⟨1, _⟩ => show win0_4.index t (1 : Fin 3) * 512 ≤ (i 1).val ∧ (i 1).val < win0_4.index t (1 : Fin 3) * 512 + 512; omega
  | ⟨2, _⟩ => show win0_4.index t (2 : Fin 3) * 64 ≤ (i 2).val ∧ (i 2).val < win0_4.index t (2 : Fin 3) * 64 + 64; omega

/-- After the run the attention array holds the specification's attention probabilities. -/
theorem final5 (c : Dev nD) (hg : Good m c) :
    (dats m 0 c).arrAt 5 cfg0.N = attnArr (qArr m c) (kArr m c) (mArr m c) :=
  (dats m 0 c).arrAt_eq_of_cover 5 (attnArr (qArr m c) (kArr m c) (mArr m c)) (fun t _ => flushed5_eq m c hg t) cover5

/-- After the run the output array holds the specification's output. -/
theorem final4 (c : Dev nD) (hg : Good m c) :
    (dats m 0 c).arrAt 4 cfg0.N = outArr (qArr m c) (kArr m c) (vArr m c) (mArr m c) :=
  (dats m 0 c).arrAt_eq_of_cover 4 (outArr (qArr m c) (kArr m c) (vArr m c) (mArr m c)) (fun t _ => flushed4_eq m c hg t) cover4

/-- The kernel's run, read: both result arrays at the specification's functions of the argument arrays, the
    arguments unchanged. -/
theorem run (hg : ∀ c, Good m c) :
    θ_run defs (onTc (τ := τ) (main (F := Ideal))) ⟨m, fun _ => 0, ρ⟩ fun r => ∀ c : Dev nD,
      r.2.mem ((c : Thread nD τ).loc main_v1_0) = outArr (qArr m c) (kArr m c) (vArr m c) (mArr m c)
      ∧ r.2.mem ((c : Thread nD τ).loc main_v1_1) = attnArr (qArr m c) (kArr m c) (mArr m c)
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3) :=
  (θ_run defs _ _).mono (fun r h c => ⟨(h c).1.trans (final4 m c (hg c)), (h c).2.1.trans (final5 m c (hg c)), (h c).2.2⟩)
    (run_blocks m ρ)

end Cert.Attn.Run

end
-- ==== Proof.RefSide.lean ====
/-
  The reference computes the specification: its attention probabilities are the softmax of the masked scores, and its
  output their weighted sum of the value rows, index by index.
-/
import proofs.«429906_j24300924961205_3_alg».proof.Proof.Gen.ReferenceIdeal.Read
import proofs.«429906_j24300924961205_3_alg».proof.Proof.RowLaw

noncomputable section

namespace Cert.Attn

open Idealize.ShloMosaic Idealize.ShloMosaic.ValueIdx Cert.ReferenceIdeal Cert.ReferenceIdeal.Read

/-- The reduced index (b, i) with key coordinate k put back is (b, i, k). -/
private theorem lift_ix3 (h : S64x2048x2048.Reduces [2] S64x2048) (b : Fin 64) (i : Fin 2048)
    (k : Fin (S64x2048x2048.size 2)) : h.lift (ix2 b i) k = ix3 b i (⟨k.val, k.isLt⟩ : Fin 2048) := by
  funext c; apply Fin.ext
  fin_cases c <;> rfl

/-- The first dot product reads the query at (b, i, d). -/
private theorem lidx0_ix3 (b : Fin 64) (i j : Fin 2048) (d : Fin 64) : lidx_main_v0 (ix3 b i j) d = ix3 b i d :=
  funext fun a => Fin.ext (by match a with | ⟨0, _⟩ => rfl | ⟨1, _⟩ => rfl | ⟨2, _⟩ => rfl)

/-- The first dot product reads the key at (b, j, d). -/
private theorem ridx0_ix3 (b : Fin 64) (i j : Fin 2048) (d : Fin 64) : ridx_main_v0 (ix3 b i j) d = ix3 b j d :=
  funext fun a => Fin.ext (by match a with | ⟨0, _⟩ => rfl | ⟨1, _⟩ => rfl | ⟨2, _⟩ => rfl)

/-- The row maximum broadcast back over the keys is read at (b, i). -/
private theorem idx78_ix3 (b : Fin 64) (i j : Fin 2048) : idx_main_v7 (idx_main_v8 (ix3 b i j)) = ix2 b i :=
  funext fun a => Fin.ext (by match a with | ⟨0, _⟩ => rfl | ⟨1, _⟩ => rfl)

/-- The normaliser broadcast back over the keys is read at (b, i). -/
private theorem idx1213_ix3 (b : Fin 64) (i j : Fin 2048) : idx_main_v12 (idx_main_v13 (ix3 b i j)) = ix2 b i :=
  funext fun a => Fin.ext (by match a with | ⟨0, _⟩ => rfl | ⟨1, _⟩ => rfl)

/-- The sum over the keys at (b, i) reads (b, i, j). -/
private theorem idx11_ix2 (b : Fin 64) (i j : Fin 2048) : idx_main_v11 (ix2 b i) j = ix3 b i j :=
  funext fun a => Fin.ext (by match a with | ⟨0, _⟩ => rfl | ⟨1, _⟩ => rfl | ⟨2, _⟩ => rfl)

/-- The reference's masked, scaled scores are the specification's. -/
theorem v3_eq_score (q k : (⟨S64x2048x64, .f32⟩ : BufTy).Contents (Elt Ideal)) (msk : (⟨S64x2048x2048, .i1⟩ : BufTy).Contents (Elt Ideal))
    (b : Fin 64) (i j : Fin 2048) :
    val_main_v3 (F := Ideal) q k msk (ix3 b i j) = score q k msk b i j := by
  rw [val_main_v3_apply, val_main_call0_v1_apply, val_main_call0_v0_apply, val_main_cst_0_apply, val_main_v2_apply,
    val_main_v0_apply, val_main_v1_apply, val_main_cst_apply]
  simp only [Ideal.ofBits_def, Ideal.hostDivf_def, ofBits_neg_inf, ofBits_eight, lidx0_ix3, ridx0_ix3]
  rfl

/-- The reference's row maximum is the specification's. -/
theorem v6_eq_rowMax (q k : (⟨S64x2048x64, .f32⟩ : BufTy).Contents (Elt Ideal)) (msk : (⟨S64x2048x2048, .i1⟩ : BufTy).Contents (Elt Ideal))
    (b : Fin 64) (i : Fin 2048) :
    val_main_v6 (F := Ideal) q k msk (ix2 b i) = rowMax (score q k msk b i) := by
  rw [val_main_v6_apply, val_main_v5_apply, val_main_cst_2_apply]
  unfold val_main_v4
  have hR : S64x2048x2048.Reduces [2] S64x2048 := by decide
  have e := Host.reduce_eq_fold_single (α := Ideal .f32) (s := S64x2048x2048) (t := S64x2048) (a := 2) (u := S_)
    FloatOps.maximumf (val_main_v3 (F := Ideal) q k msk) (val_main_cst_1 (F := Ideal))
    Cert.ReferenceIdeal.Gen.reducesTo_S64x2048x2048_S64x2048_d2 hR Cert.ReferenceIdeal.Gen.h_S_ (ix2 b i)
  have hf : (val_main_v3 (F := Ideal) q k msk ∘ hR.lift (ix2 b i)) = score q k msk b i :=
    funext fun kk => (congrArg (val_main_v3 (F := Ideal) q k msk) (lift_ix3 hR b i kk)).trans (v3_eq_score q k msk b i _)
  rw [e, hf, val_main_cst_1_apply]
  simp only [Ideal.ofBits_def, ofBits_neg_inf]
  exact max_bot_rowMax (score q k msk b i)

/-- The reference's shifted exponentials are the specification's. -/
theorem v10_eq_expRow (q k : (⟨S64x2048x64, .f32⟩ : BufTy).Contents (Elt Ideal)) (msk : (⟨S64x2048x2048, .i1⟩ : BufTy).Contents (Elt Ideal))
    (b : Fin 64) (i j : Fin 2048) :
    val_main_v10 (F := Ideal) q k msk (ix3 b i j) = expRow (score q k msk b i) j := by
  rw [val_main_v10_apply, val_main_v9_apply, val_main_v8_apply, val_main_v7_apply, idx78_ix3, v3_eq_score, v6_eq_rowMax]
  simp only [Ideal.hostUnary_exp_def, Ideal.subf_def]
  rfl

/-- The reference's normaliser is the specification's. -/
theorem v11_eq_rowSum (q k : (⟨S64x2048x64, .f32⟩ : BufTy).Contents (Elt Ideal)) (msk : (⟨S64x2048x2048, .i1⟩ : BufTy).Contents (Elt Ideal))
    (b : Fin 64) (i : Fin 2048) :
    val_main_v11 (F := Ideal) q k msk (ix2 b i) = rowSum (score q k msk b i) := by
  rw [val_main_v11_apply, val_main_cst_3_apply]
  simp only [Ideal.ofBits_def, Ideal.ofBits_zero_f32, zero_add, idx11_ix2, v10_eq_expRow]
  rfl

/-- The reference's attention probability at (b, i, j) is the specification's. -/
theorem v14_eq_attn (q k : (⟨S64x2048x64, .f32⟩ : BufTy).Contents (Elt Ideal)) (msk : (⟨S64x2048x2048, .i1⟩ : BufTy).Contents (Elt Ideal))
    (b : Fin 64) (i j : Fin 2048) :
    val_main_v14 (F := Ideal) q k msk (ix3 b i j) = attn q k msk b i j := by
  rw [val_main_v14_apply, val_main_v13_apply, val_main_v12_apply, idx1213_ix3, v10_eq_expRow, v11_eq_rowSum]
  simp only [Ideal.hostDivf_def]
  rfl

/-- The reference's attention probabilities are the specification's. -/
theorem ref_attn (q k : (⟨S64x2048x64, .f32⟩ : BufTy).Contents (Elt Ideal)) (msk : (⟨S64x2048x2048, .i1⟩ : BufTy).Contents (Elt Ideal)) :
    val_main_v14 (F := Ideal) q k msk = attnArr q k msk := by
  funext x
  exact (congrArg (val_main_v14 (F := Ideal) q k msk) (eq_ix3 x)).trans (v14_eq_attn q k msk (x 0) (x 1) (x 2))

/-- The reference's output is the specification's. -/
theorem ref_out (q k v : (⟨S64x2048x64, .f32⟩ : BufTy).Contents (Elt Ideal)) (msk : (⟨S64x2048x2048, .i1⟩ : BufTy).Contents (Elt Ideal)) :
    val_main_v15 (F := Ideal) q k v msk = outArr q k v msk := by
  funext x
  rw [val_main_v15_apply, ref_attn]
  show _ = ∑ j : Fin 2048, attn q k msk (x 0) (x 1) j * v (ix3 (x 0) j (x 2))
  refine Finset.sum_congr rfl fun j _ => ?_
  have er : ridx_main_v15 x j = ix3 (x 0) j (x 2) :=
    funext fun a => Fin.ext (by match a with | ⟨0, _⟩ => rfl | ⟨1, _⟩ => rfl | ⟨2, _⟩ => rfl)
  rw [er]
  rfl

end Cert.Attn

end
-- ==== Proof.PreFacts.lean ====
/-
  What the precondition says of the argument arrays: every query, key and value entry is a real number, and every
  query row of the mask leaves at least one key unmasked.
-/
import proofs.«429906_j24300924961205_3_alg».proof.Pre_finite_inputs
import proofs.«429906_j24300924961205_3_alg».proof.Proof.Spec
import Idealize.ShloMosaic.Lib.ReduceAll

noncomputable section

namespace Cert.Attn

open Idealize.ShloMosaic Idealize.ShloMosaic.ValueIdx

/-- The pattern of positive infinity denotes the top element. -/
private theorem ofBits_inf : Ideal.ofBits .f32 0x7F800000#32 = (⊤ : EReal) := by
  simp [Ideal.ofBits, Ideal.ieee]

/-- An extended real whose absolute value lies strictly below the top element is neither infinity. -/
private theorem real_of_abs_lt_top (a : EReal) (h : Ideal.cmp .olt (max a (-a)) ⊤ = 1#1) : a ≠ ⊤ ∧ a ≠ ⊥ := by
  constructor
  · rintro rfl
    revert h
    simp [Ideal.cmp]
  · rintro rfl
    revert h
    simp [Ideal.cmp]

/-- A left fold by `or` over one-bit words that came out 1 either started at 1 or met a 1. -/
private theorem foldl_ori_eq_one {ι : Type} (f : ι → BitVec 1) :
    ∀ (l : List ι) (init : BitVec 1), l.foldl (fun r n => IntOp.ori r (f n)) init = 1#1 → init = 1#1 ∨ ∃ n ∈ l, f n = 1#1
  | [], _, h => Or.inl h
  | a :: l, _, h => by
    rcases foldl_ori_eq_one f l _ h with h1 | ⟨n, hn, hf⟩
    · rcases IntOp.ori_eq_one.1 h1 with hi | ha
      · exact Or.inl hi
      · exact Or.inr ⟨a, List.mem_cons_self, ha⟩
    · exact Or.inr ⟨n, List.mem_cons_of_mem _ hn, hf⟩

/-- The printed precondition, all ones, gives: the three float arrays hold reals only, and each query row of the mask
    has a key whose bit is not set. -/
theorem of_pre [Cert.Pre_finite_inputs.Facts]
    (q k v : FVec Ideal Cert.Pre_finite_inputs.S64x2048x64 .f32) (msk : IVec Cert.Pre_finite_inputs.S64x2048x2048 1)
    (h : Cert.Pre_finite_inputs.fn (F := Ideal) q k v msk = fun _ => 1#1) :
    (∀ x, q x ≠ ⊤ ∧ q x ≠ ⊥) ∧ (∀ x, k x ≠ ⊤ ∧ k x ≠ ⊥) ∧ (∀ x, v x ≠ ⊤ ∧ v x ≠ ⊥)
      ∧ ∀ (b : Fin 64) (i : Fin 2048), ∃ j : Fin 2048, msk (ix3 b i j) ≠ 1#1 := by
  have h0 := congrFun h ValueIdx.ix0
  dsimp only [Cert.Pre_finite_inputs.fn, Cert.Pre_finite_inputs.fn_part1] at h0
  haveI : Subsingleton Cert.Pre_finite_inputs.S_.Idx := ⟨fun a b => funext fun d => d.elim0⟩
  -- The result bit is the conjunction of four bits: one per float array, one for the mask.
  obtain ⟨h123, hm⟩ := IntOp.andi_eq_one.1 h0
  obtain ⟨h12, h3⟩ := IntOp.andi_eq_one.1 h123
  obtain ⟨h1, h2⟩ := IntOp.andi_eq_one.1 h12
  -- One entry's bit: its absolute value is strictly below positive infinity, so it is a real number.
  have real : ∀ (a : FVec Ideal Cert.Pre_finite_inputs.S64x2048x64 .f32) (x : Cert.Pre_finite_inputs.S64x2048x64.Idx),
      cmpf .olt (Host.absf a) (broadcastInDim Cert.Pre_finite_inputs.S64x2048x64 ![]
        Cert.Pre_finite_inputs.Facts.bcast_S_S64x2048x64 (constant Cert.Pre_finite_inputs.S_ .f32 0x7F800000#32)) x = 1#1 →
      a x ≠ ⊤ ∧ a x ≠ ⊥ := by
    intro a x e
    change Ideal.cmp .olt (max (a x) (-(a x))) (Ideal.ofBits .f32 0x7F800000#32) = 1#1 at e
    rw [ofBits_inf] at e
    exact real_of_abs_lt_top _ e
  refine ⟨fun x => real q x (Host.reduce_andi_all _ _ _ _ _ h1 x), fun x => real k x (Host.reduce_andi_all _ _ _ _ _ h2 x),
    fun x => real v x (Host.reduce_andi_all _ _ _ _ _ h3 x), fun b i => ?_⟩
  -- The bit of query row (b, i) is the disjunction, from 0, of the negated mask bits of the indices in that row.
  have hrow := Host.reduce_andi_all _ _ _ _ _ hm (ix2 b i)
  rw [Host.reduce_eq_foldl] at hrow
  rcases foldl_ori_eq_one _ _ _ hrow with hi | ⟨x, hx, hfx⟩
  · change (0#1 : BitVec 1) = 1#1 at hi
    exact absurd hi (by decide)
  · -- An index of that row whose negated mask bit is 1: its first two coordinates are b and i.
    have hd := of_decide_eq_true (List.mem_filter.1 hx).2
    have e0 : x 0 = b := Fin.ext <| by
      rw [← Cert.Pre_finite_inputs.Facts.reducesTo_S64x2048x2048_S64x2048_d2.drop_apply_val_of_eq x 0 0, hd]
    have e1 : x 1 = i := Fin.ext <| by
      rw [← Cert.Pre_finite_inputs.Facts.reducesTo_S64x2048x2048_S64x2048_d2.drop_apply_val_of_eq x 1 1, hd]
    have ex : x = ix3 b i (x 2) := by
      rw [← e0, ← e1]; exact eq_ix3 x
    refine ⟨x 2, fun hone => ?_⟩
    rw [ex] at hfx
    change ~~~(msk (ix3 b i (x 2))) = 1#1 at hfx
    rw [hone] at hfx
    exact absurd hfx (by decide)

end Cert.Attn

end
-- ==== Proof.lean ====
/-
  The certificate of a masked softmax attention kernel against its reference, over the extended reals.

  Both programs compute, for every batch and query row, the scores of the row against all keys (the dot product over the
  64 features divided by 8; the kernel multiplies the query by 1/8 first, an exact power of two), put the bottom
  element where the mask is set, shift the row by its maximum, exponentiate, normalise by the row's sum, and multiply
  the resulting probabilities into the values. The kernel normalises by multiplying with the reciprocal of the sum,
  the reference by dividing by it: these agree exactly where the sum is not zero, which holds on every row that has
  an unmasked key — the precondition's last conjunct; on a fully masked row the reference itself subtracts the bottom
  element from itself. Finiteness of the queries and keys is what makes the pre-multiplication by 1/8 commute with the
  sum and keeps every score below the top element.

  The kernel's two result arrays are read off its run block by block (Proof/Blocks.lean, over Proof/BlockValue.lean and
  Proof/KernelPay.lean), the reference's off its run operation by operation (Proof/RefSide.lean); both are the
  specification of Proof/Spec.lean; Proof/RowLaw.lean holds the laws of a softmax row and Proof/PreFacts.lean what
  the precondition says of the arrays. The kernel's fill constant is read as the bottom element: the one rewrite of
  the idealization, restated as its rule's statement.
-/
import proofs.«429906_j24300924961205_3_alg».proof.Defs
import proofs.«429906_j24300924961205_3_alg».proof.Proof.Gen.Kernel
import proofs.«429906_j24300924961205_3_alg».proof.Proof.Gen.Kernel.Skeleton
import proofs.«429906_j24300924961205_3_alg».proof.Proof.Gen.Kernel.Launch
import proofs.«429906_j24300924961205_3_alg».proof.Proof.Gen.Kernel.Points
import proofs.«429906_j24300924961205_3_alg».proof.Proof.Gen.Kernel.Frame
import proofs.«429906_j24300924961205_3_alg».proof.Proof.Gen.KernelIdeal
import proofs.«429906_j24300924961205_3_alg».proof.Proof.Gen.KernelIdeal.Skeleton
import proofs.«429906_j24300924961205_3_alg».proof.Proof.Gen.KernelIdeal.Launch
import proofs.«429906_j24300924961205_3_alg».proof.Proof.Gen.KernelIdeal.Points
import proofs.«429906_j24300924961205_3_alg».proof.Proof.Gen.KernelIdeal.Frame
import proofs.«429906_j24300924961205_3_alg».proof.Proof.Gen.ReferenceIdeal
import proofs.«429906_j24300924961205_3_alg».proof.Proof.Gen.Pre_finite_inputs
import proofs.«429906_j24300924961205_3_alg».proof.Proof.Gen.KernelIdeal.Value
import proofs.«429906_j24300924961205_3_alg».proof.Proof.Gen.ReferenceIdeal.Run
import proofs.«429906_j24300924961205_3_alg».proof.Proof.Gen.ReferenceIdeal.Read
import proofs.«429906_j24300924961205_3_alg».proof.Proof.Blocks
import proofs.«429906_j24300924961205_3_alg».proof.Proof.RefSide
import proofs.«429906_j24300924961205_3_alg».proof.Proof.PreFacts
import Idealize.ShloMosaic.Adequacy
import Idealize.ShloMosaic.Init

noncomputable section

namespace Cert.Proof

open Idealize.ShloMosaic Idealize.SL.Sem

/-- Under the precondition every core's queries and keys are real and every query row has an unmasked key. -/
theorem good_of_pre (m : (ℓ : Loc Cert.KernelIdeal.nD Cert.KernelIdeal.τ Cert.KernelIdeal.sig) → Buf (Elt Ideal) ℓ)
    (h : Cert.Pre_KernelIdeal m) (c : Dev Cert.KernelIdeal.nD) : Cert.Attn.Run.Good m c := by
  obtain ⟨hq, hk, -, hm⟩ := Cert.Attn.of_pre _ _ _ _ (h c)
  exact ⟨hq, hk, hm⟩

theorem frame_k : Cert.frame_Kernel := fun m ρ _ => Cert.Kernel.Gen.frame m ρ

theorem frame_ki : Cert.frame_KernelIdeal := fun m ρ _ => Cert.KernelIdeal.Gen.frame m ρ

/-- The reference's frame is its run with the two results dropped. -/
theorem frame_ri : Cert.frame_ReferenceIdeal := fun m ρ _ =>
  (θ_run Cert.ReferenceIdeal.defs _ _).mono (fun _ h c => (h c).2.2) (Cert.ReferenceIdeal.Value.run (F := Ideal) m ρ)

/-- The one rewrite of the idealization: the fill constant is the bottom element by the certificate's table. -/
theorem preserves : Cert.preserves_Kernel_KernelIdeal :=
  IdealRules.named_const.statement Cert.KernelIdeal.κ "neg_big" .f32 0xFF333332#32 ⊥ rfl

/-- Both programs end with the specification's output and attention probabilities of arguments that agree. -/
theorem algebraic : Cert.algebraic_KernelIdeal_ReferenceIdeal := by
  intro m ρ m' ρ' hpre hagree
  refine ⟨_, _, Cert.Attn.Run.run m ρ (good_of_pre m hpre), ?_⟩
  refine (θ_run Cert.ReferenceIdeal.defs _ _).mono (fun _ h c => ⟨?_, ?_, (h c).2.2⟩)
    (Cert.ReferenceIdeal.Value.run (F := Ideal) m' ρ')
  · rw [(h c).1, Cert.ReferenceIdeal.Read.val_main_v15_eq, Cert.Attn.ref_out, (hagree c).1, (hagree c).2.1,
      (hagree c).2.2.1, (hagree c).2.2.2]
  · rw [(h c).2.1, Cert.ReferenceIdeal.Read.val_main_v14_eq, Cert.Attn.ref_attn, (hagree c).1, (hagree c).2.1,
      (hagree c).2.2.2]

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
